-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S600000x128 : Shape := ⟨2, ![600000, 128]⟩
abbrev S128x512 : Shape := ⟨2, ![128, 512]⟩
abbrev S512 : Shape := ⟨1, ![512]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_

variable [Facts]

def fn_part2 {F : FTy → Type} [FloatOps F] (main_arg2 : IVec S600000 32) (main_v28 : IVec S_ 1) (main_v33 : IVec S600000 1) : IVec S_ 1 :=
  let main_c_12 : IVec S_ 1 := constantI S_ 1 1#1
  let main_v34 : IVec S_ 1 := (fun x v => Host.reduce IntOp.andi x v reducesTo_S600000_S_d0 h_S_) main_v33 main_c_12
  let main_v35 : IVec S_ 1 := andi main_v28 main_v34
  let main_c_13 : IVec S_ 32 := constantI S_ 32 0#32
  let main_v36 : IVec S600000 32 := broadcastInDim S600000 ![] bcast_S_S600000 main_c_13
  let main_v37 : IVec S600000 1 := cmpi .sge main_arg2 main_v36
  let main_c_14 : IVec S_ 32 := constantI S_ 32 50000#32
  let main_v38 : IVec S600000 32 := broadcastInDim S600000 ![] bcast_S_S600000 main_c_14
  let main_v39 : IVec S600000 1 := cmpi .slt main_arg2 main_v38
  let main_v40 : IVec S600000 1 := andi main_v37 main_v39
  let main_c_15 : IVec S_ 1 := constantI S_ 1 1#1
  let main_v41 : IVec S_ 1 := (fun x v => Host.reduce IntOp.andi x v reducesTo_S600000_S_d0 h_S_) main_v40 main_c_15
  let main_v42 : IVec S_ 1 := andi main_v35 main_v41
  main_v42

def fn_part1 {F : FTy → Type} [FloatOps F] (main_arg1 : IVec S600000 32) (main_arg2 : IVec S600000 32) (main_arg6 : FVec F S128x128 .f32) (main_arg7 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S600000 32 := broadcastInDim S600000 ![] bcast_S_S600000 main_c_10
  let main_v30 : IVec S600000 1 := cmpi .sge main_arg1 main_v29
  let main_c_11 : IVec S_ 32 := constantI S_ 32 50000#32
  let main_v31 : IVec S600000 32 := broadcastInDim S600000 ![] bcast_S_S600000 main_c_11
  let main_v32 : IVec S600000 1 := cmpi .slt main_arg1 main_v31
  let main_v33 : IVec S600000 1 := andi main_v30 main_v32
  fn_part2 (F := F) main_arg2 main_v28 main_v33

def fn {F : FTy → Type} [FloatOps F] (main_arg0 : FVec F S50000x128 .f32) (main_arg1 : IVec S600000 32) (main_arg2 : IVec S600000 32) (main_arg3 : FVec F S600000x128 .f32) (main_arg4 : FVec F S128x512 .f32) (main_arg5 : FVec F S512 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg3
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x512 .f32 := Host.absf main_arg4
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg2 main_arg6 main_arg7 main_v13 main_v16
-- ==== Kernel.lean ====
abbrev S50000x128 : Shape := ⟨2, ![50000, 128]⟩
abbrev S600000 : Shape := ⟨1, ![600000]⟩
abbrev S600000x128 : Shape := ⟨2, ![600000, 128]⟩
abbrev S128x512 : Shape := ⟨2, ![128, 512]⟩
abbrev S512 : Shape := ⟨1, ![512]⟩
abbrev S128x128 : Shape := ⟨2, ![128, 128]⟩
abbrev S128 : Shape := ⟨1, ![128]⟩
abbrev S10000x128 : Shape := ⟨2, ![10000, 128]⟩
abbrev S10000x512 : Shape := ⟨2, ![10000, 512]⟩
abbrev S1x512 : Shape := ⟨2, ![1, 512]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S1x128 : Shape := ⟨2, ![1, 128]⟩

abbrev nBuf : Space → Nat
  | .hbm => 103
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000x128, .f32⟩
  | .hbm, ⟨4, _⟩ => ⟨S128x512, .f32⟩
  | .hbm, ⟨5, _⟩ => ⟨S512, .f32⟩
  | .hbm, ⟨6, _⟩ => ⟨S128x128, .f32⟩
  | .hbm, ⟨7, _⟩ => ⟨S128, .f32⟩
  | .hbm, ⟨8, _⟩ => ⟨S50000x128, .f32⟩
  | .hbm, ⟨9, _⟩ => ⟨S50000x128, .f32⟩
  | .hbm, ⟨10, _⟩ => ⟨S50000x128, .f32⟩
  | .hbm, ⟨11, _⟩ => ⟨S50000x128, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S1, .i32⟩
  | .hbm, ⟨37, _⟩ => ⟨S_, .i32⟩
  | .hbm, ⟨38, _⟩ => ⟨S600000x1, .i32⟩
  | .hbm, ⟨39, _⟩ => ⟨S600000x1, .i1⟩
  | .hbm, ⟨40, _⟩ => ⟨S1x1, .i32⟩
  | .hbm, ⟨41, _⟩ => ⟨S600000x1, .i32⟩
  | .hbm, ⟨42, _⟩ => ⟨S600000x1, .i1⟩
  | .hbm, ⟨43, _⟩ => ⟨S600000x1, .i1⟩
  | .hbm, ⟨44, _⟩ => ⟨S_, .i1⟩
  | .hbm, ⟨45, _⟩ => ⟨S600000, .i1⟩
  | .hbm, ⟨46, _⟩ => ⟨S600000x128, .f32⟩
  | .hbm, ⟨47, _⟩ => ⟨S600000x128, .i1⟩
  | .hbm, ⟨48, _⟩ => ⟨S_, .f32⟩
  | .hbm, ⟨49, _⟩ => ⟨S600000x128, .f32⟩
  | .hbm, ⟨50, _⟩ => ⟨S600000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S1, .i32⟩
  | .hbm, ⟨60, _⟩ => ⟨S_, .i32⟩
  | .hbm, ⟨61, _⟩ => ⟨S600000x1, .i32⟩
  | .hbm, ⟨62, _⟩ => ⟨S600000x1, .i1⟩
  | .hbm, ⟨63, _⟩ => ⟨S1x1, .i32⟩
  | .hbm, ⟨64, _⟩ => ⟨S600000x1, .i32⟩
  | .hbm, ⟨65, _⟩ => ⟨S600000x1, .i1⟩
  | .hbm, ⟨66, _⟩ => ⟨S600000x1, .i1⟩
  | .hbm, ⟨67, _⟩ => ⟨S_, .i1⟩
  | .hbm, ⟨68, _⟩ => ⟨S600000, .i1⟩
  | .hbm, ⟨69, _⟩ => ⟨S600000x128, .f32⟩
  | .hbm, ⟨70, _⟩ => ⟨S600000x128, .i1⟩
  | .hbm, ⟨71, _⟩ => ⟨S_, .f32⟩
  | .hbm, ⟨72, _⟩ => ⟨S600000x128, .f32⟩
  | .hbm, ⟨73, _⟩ => ⟨S600000x128, .f32⟩
  | .hbm, ⟨74, _⟩ => ⟨S_, .i32⟩
  | .hbm, ⟨75, _⟩ => ⟨S600000, .i32⟩
  | .hbm, ⟨76, _⟩ => ⟨S600000, .i1⟩
  | .hbm, ⟨77, _⟩ => ⟨S_, .i32⟩
  | .hbm, ⟨78, _⟩ => ⟨S600000, .i32⟩
  | .hbm, ⟨79, _⟩ => ⟨S600000, .i32⟩
  | .hbm, ⟨80, _⟩ => ⟨S600000, .i32⟩
  | .hbm, ⟨81, _⟩ => ⟨S600000x1, .i32⟩
  | .hbm, ⟨82, _⟩ => ⟨S1, .i32⟩
  | .hbm, ⟨83, _⟩ => ⟨S_, .i32⟩
  | .hbm, ⟨84, _⟩ => ⟨S600000x1, .i32⟩
  | .hbm, ⟨85, _⟩ => ⟨S600000x1, .i1⟩
  | .hbm, ⟨86, _⟩ => ⟨S1x1, .i32⟩
  | .hbm, ⟨87, _⟩ => ⟨S600000x1, .i32⟩
  | .hbm, ⟨88, _⟩ => ⟨S600000x1, .i1⟩
  | .hbm, ⟨89, _⟩ => ⟨S600000x1, .i1⟩
  | .hbm, ⟨90, _⟩ => ⟨S_, .i1⟩
  | .hbm, ⟨91, _⟩ => ⟨S600000, .i1⟩
  | .hbm, ⟨92, _⟩ => ⟨S600000x128, .f32⟩
  | .hbm, ⟨93, _⟩ => ⟨S600000x128, .i1⟩
  | .hbm, ⟨94, _⟩ => ⟨S_, .f32⟩
  | .hbm, ⟨95, _⟩ => ⟨S600000x128, .f32⟩
  | .hbm, ⟨96, _⟩ => ⟨S600000x128, .f32⟩
  | .hbm, ⟨97, _⟩ => ⟨S600000x128, .f32⟩
  | .hbm, ⟨98, _⟩ => ⟨S_, .f32⟩
  | .hbm, ⟨99, _⟩ => ⟨S50000x128, .f32⟩
  | .hbm, ⟨100, _⟩ => ⟨S600000x1, .i32⟩
  | .hbm, ⟨101, _⟩ => ⟨S50000x128, .f32⟩
  | .hbm, ⟨102, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x512, .f32⟩
  | .local _ .vmem, ⟨3, _⟩ => ⟨S512, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S128, .f32⟩
  | .local _ .vmem, ⟨22, _⟩ => ⟨S10000x128, .f32⟩
  | .local _ .vmem, ⟨23, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v1 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v2 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_v14 : Ref sig .tc := ⟨.hbm, 47, rfl⟩
abbrev main_call2_cst : Ref sig .tc := ⟨.hbm, 48, rfl⟩
abbrev main_call2_v15 : Ref sig .tc := ⟨.hbm, 49, rfl⟩
abbrev main_v3 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_v14 : Ref sig .tc := ⟨.hbm, 70, rfl⟩
abbrev main_call3_cst : Ref sig .tc := ⟨.hbm, 71, rfl⟩
abbrev main_call3_v15 : Ref sig .tc := ⟨.hbm, 72, rfl⟩
abbrev main_v4 : Ref sig .tc := ⟨.hbm, 73, rfl⟩
abbrev main_call4_c : Ref sig .tc := ⟨.hbm, 74, rfl⟩
abbrev main_call4_v0 : Ref sig .tc := ⟨.hbm, 75, rfl⟩
abbrev main_call4_v1 : Ref sig .tc := ⟨.hbm, 76, rfl⟩
abbrev main_call4_c_0 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_v5 : Ref sig .tc := ⟨.hbm, 81, rfl⟩
abbrev main_call4_c_1 : Ref sig .tc := ⟨.hbm, 82, rfl⟩
abbrev main_call4_c_2 : Ref sig .tc := ⟨.hbm, 83, rfl⟩
abbrev main_call4_v6 : Ref sig .tc := ⟨.hbm, 84, rfl⟩
abbrev main_call4_v7 : Ref sig .tc := ⟨.hbm, 85, rfl⟩
abbrev main_call4_v8 : Ref sig .tc := ⟨.hbm, 86, rfl⟩
abbrev main_call4_v9 : Ref sig .tc := ⟨.hbm, 87, rfl⟩
abbrev main_call4_v10 : Ref sig .tc := ⟨.hbm, 88, rfl⟩
abbrev main_call4_v11 : Ref sig .tc := ⟨.hbm, 89, rfl⟩
abbrev main_call4_c_3 : Ref sig .tc := ⟨.hbm, 90, rfl⟩
abbrev main_call4_v12 : Ref sig .tc := ⟨.hbm, 91, rfl⟩
abbrev main_call4_v13 : Ref sig .tc := ⟨.hbm, 92, rfl⟩
abbrev main_call4_v14 : Ref sig .tc := ⟨.hbm, 93, rfl⟩
abbrev main_call4_cst : Ref sig .tc := ⟨.hbm, 94, rfl⟩
abbrev main_call4_v15 : Ref sig .tc := ⟨.hbm, 95, rfl⟩
abbrev main_v5 : Ref sig .tc := ⟨.hbm, 96, rfl⟩
abbrev main_v6 : Ref sig .tc := ⟨.hbm, 97, rfl⟩
abbrev main_cst : Ref sig .tc := ⟨.hbm, 98, rfl⟩
abbrev main_v7 : Ref sig .tc := ⟨.hbm, 99, rfl⟩
abbrev main_v8 : Ref sig .tc := ⟨.hbm, 100, rfl⟩
abbrev main_v9 : Ref sig .tc := ⟨.hbm, 101, rfl⟩
abbrev main_v10 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  broadcasts_S1x512_S10000x512 : S1x512.Broadcasts S10000x512
  slices_S10000x512_o0_0_S10000x128 : S10000x512.Slices ![0, 0] S10000x128
  slices_S10000x512_o0_128_S10000x128 : S10000x512.Slices ![0, 128] S10000x128
  slices_S10000x512_o0_256_S10000x128 : S10000x512.Slices ![0, 256] S10000x128
  slices_S10000x512_o0_384_S10000x128 : S10000x512.Slices ![0, 384] S10000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  shapeCasts_S10000x128_S10000x128 : S10000x128.ShapeCasts S10000x128
  bcast_S_S50000x128 : S_.BroadcastsInDim S50000x128 (![] : Fin 0 → Fin S50000x128.rank)
  dot_S10000x128_S128x512_S10000x512_1_0_0_1_n_n_wf : DotDims.WF S10000x128 S128x512 S10000x512 [1] [0] [0] [1] [] []
  gather_S50000x128_S600000x1_S600000x128_1_0_n_n_0_1_1128_wf : GatherDims.WF S50000x128 S600000x1 S600000x128 [1] [0] [] [0] [] 1 ![1, 128]
  dot_S10000x128_S128x128_S10000x128_1_0_0_1_n_n_wf : DotDims.WF S10000x128 S128x128 S10000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S50000x128.size a
  hwx0_4 : ∀ i : grid0.Coords, EltTy.bits .f32 = 32 ∨ (Rect.block (s := S50000x128) S10000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S600000x128.size a
  hwx1_0 : ∀ i : grid1.Coords, EltTy.bits .f32 = 32 ∨ (Rect.block (s := S600000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S600000x128.size a
  hwx1_1 : ∀ i : grid1.Coords, EltTy.bits .f32 = 32 ∨ (Rect.block (s := S600000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S600000x128.size a
  hwx1_2 : ∀ i : grid1.Coords, EltTy.bits .f32 = 32 ∨ (Rect.block (s := S600000x128) S10000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S600000x128.size a
  hwx1_3 : ∀ i : grid1.Coords, EltTy.bits .f32 = 32 ∨ (Rect.block (s := S600000x128) S10000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S600000x128.size a
  hwx1_6 : ∀ i : grid1.Coords, EltTy.bits .f32 = 32 ∨ (Rect.block (s := S600000x128) S10000x128.size (cc1_transform_6 i) (hinb1_6 i)).WholeWords (EltTy.packing .f32)

variable [Facts₀]

def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S10000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S10000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg3) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S10000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S600000x128 : Shape := ⟨2, ![600000, 128]⟩
abbrev S128x512 : Shape := ⟨2, ![128, 512]⟩
abbrev S512 : Shape := ⟨1, ![512]⟩
abbrev S128x128 : Shape := ⟨2, ![128, 128]⟩
abbrev S128 : Shape := ⟨1, ![128]⟩
abbrev S50000x512 : Shape := ⟨2, ![50000, 512]⟩
abbrev S1x512 : Shape := ⟨2, ![1, 512]⟩
abbrev S_ : Shape := ⟨0, ![]⟩
abbrev S600000x1 : Shape := ⟨2, ![600000, 1]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000x128, .f32⟩
  | .hbm, ⟨4, _⟩ => ⟨S128x512, .f32⟩
  | .hbm, ⟨5, _⟩ => ⟨S512, .f32⟩
  | .hbm, ⟨6, _⟩ => ⟨S128x128, .f32⟩
  | .hbm, ⟨7, _⟩ => ⟨S128, .f32⟩
  | .hbm, ⟨8, _⟩ => ⟨S50000x512, .f32⟩
  | .hbm, ⟨9, _⟩ => ⟨S1x512, .f32⟩
  | .hbm, ⟨10, _⟩ => ⟨S50000x512, .f32⟩
  | .hbm, ⟨11, _⟩ => ⟨S50000x512, .f32⟩
  | .hbm, ⟨12, _⟩ => ⟨S50000x128, .f32⟩
  | .hbm, ⟨13, _⟩ => ⟨S50000x128, .f32⟩
  | .hbm, ⟨14, _⟩ => ⟨S50000x128, .f32⟩
  | .hbm, ⟨15, _⟩ => ⟨S50000x128, .f32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x128, .f32⟩
  | .hbm, ⟨35, _⟩ => ⟨S1x128, .f32⟩
  | .hbm, ⟨36, _⟩ => ⟨S600000x128, .f32⟩
  | .hbm, ⟨37, _⟩ => ⟨S600000x128, .f32⟩
  | .hbm, ⟨38, _⟩ => ⟨S600000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S600000x128, .f32⟩
  | .hbm, ⟨49, _⟩ => ⟨S600000x128, .f32⟩
  | .hbm, ⟨50, _⟩ => ⟨S600000x128, .f32⟩
  | .hbm, ⟨51, _⟩ => ⟨S_, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S600000x128, .f32⟩
  | .hbm, ⟨56, _⟩ => ⟨S600000x128, .f32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  dot_S50000x128_S128x512_S50000x512_1_0_0_1_n_n_wf : DotDims.WF S50000x128 S128x512 S50000x512 [1] [0] [0] [1] [] []
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1

variable [Facts₀]

def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.Spec.lean ====
import Idealize.ShloMosaic.Lib.ValueIdx
import Idealize.ShloMosaic.PureOps.Ideal
import Mathlib.Algebra.BigOperators.Group.Finset.Basic

/-!
# One round of gated message passing on a graph, as functions of the argument arrays

A graph of 50000 nodes and 600000 edges, every feature vector of width 128. Each node's features are
mapped by one affine map into four blocks of width 128: the node's own term `h` and its query `Q`, key
`K` and value `V`. Edge `e` runs from node `send e` to node `recv e`; its message is

  `σ (Q (recv e) + K (send e) + (edge features e · We + be)) · V (send e)`,   `σ t = 1 / (1 + e^(−t))`,

and node `v` ends at `h v` plus the sum of the messages of the edges with `recv e = v`. Everything is over the
extended reals; only sums and products of entries occur, so nothing here asks the entries to be finite.

An index word is a 32-bit word read as a signed integer. `rowOf` is the table row a word names when a
row read clamps it into the table; for a word in `[0, 50000)` it is the word itself (`rowOf_val`).
-/

open scoped BigOperators

noncomputable section

namespace Cert.GatedMessages

open Idealize.ShloMosaic Idealize.ShloMosaic.ValueIdx

/-- Row `n`, column `j` of `x · W + b` (the bias added to every row). -/
def affine {R K J : Nat} (x : (⟨2, ![R, K]⟩ : Shape).Idx → EReal) (W : (⟨2, ![K, J]⟩ : Shape).Idx → EReal)
    (b : (⟨1, ![J]⟩ : Shape).Idx → EReal) (n : Fin R) (j : Fin J) : EReal :=
  (∑ k : Fin K, x (ix2 n k) * W (ix2 k j)) + b (ix1 j)

/-- Block `s` (0: the node's own term, 1: query, 2: key, 3: value) of the node map: columns
    `128 s … 128 s + 127` of `x · W + b`. -/
def nodeBlock (s : Fin 4) (x : (⟨2, ![50000, 128]⟩ : Shape).Idx → EReal) (W : (⟨2, ![128, 512]⟩ : Shape).Idx → EReal)
    (b : (⟨1, ![512]⟩ : Shape).Idx → EReal) (n : Fin 50000) (d : Fin 128) : EReal :=
  affine x W b n ⟨d.val + 128 * s.val, by have := d.isLt; have := s.isLt; omega⟩

/-- The table row an index word names when the read clamps it into `[0, 49999]`. -/
def rowOf (w : BitVec 32) : Fin 50000 := ⟨min w.toInt.toNat 49999, by omega⟩

/-- A word in range names its own row. -/
theorem rowOf_val (w : BitVec 32) (h0 : 0 ≤ w.toInt) (h1 : w.toInt < 50000) : ((rowOf w).val : ℤ) = w.toInt := by
  unfold rowOf
  show ((min w.toInt.toNat 49999 : ℕ) : ℤ) = w.toInt
  omega

/-- Every word of an index array names a node. -/
def InRange (idx : (⟨1, ![600000]⟩ : Shape).Idx → BitVec 32) : Prop :=
  ∀ e : Fin 600000, 0 ≤ (idx (ix1 e)).toInt ∧ (idx (ix1 e)).toInt < 50000

/-- The message of edge `e`, component `d`: the gate `σ (query of the receiver + key of the sender + edge term)`
    times the sender's value. The three terms under the gate are added in this order: (query + key) + edge term. -/
def message (x : (⟨2, ![50000, 128]⟩ : Shape).Idx → EReal) (send recv : (⟨1, ![600000]⟩ : Shape).Idx → BitVec 32)
    (ef : (⟨2, ![600000, 128]⟩ : Shape).Idx → EReal) (W : (⟨2, ![128, 512]⟩ : Shape).Idx → EReal)
    (b : (⟨1, ![512]⟩ : Shape).Idx → EReal) (We : (⟨2, ![128, 128]⟩ : Shape).Idx → EReal)
    (be : (⟨1, ![128]⟩ : Shape).Idx → EReal) (e : Fin 600000) (d : Fin 128) : EReal :=
  Ideal.logistic ((nodeBlock 1 x W b (rowOf (recv (ix1 e))) d + nodeBlock 2 x W b (rowOf (send (ix1 e))) d)
      + affine ef We be e d)
    * nodeBlock 3 x W b (rowOf (send (ix1 e))) d

/-- The updated features of node `v`, component `d`: its own term plus the sum (started from zero) of the
    messages of the edges received by `v`. -/
def updated (x : (⟨2, ![50000, 128]⟩ : Shape).Idx → EReal) (send recv : (⟨1, ![600000]⟩ : Shape).Idx → BitVec 32)
    (ef : (⟨2, ![600000, 128]⟩ : Shape).Idx → EReal) (W : (⟨2, ![128, 512]⟩ : Shape).Idx → EReal)
    (b : (⟨1, ![512]⟩ : Shape).Idx → EReal) (We : (⟨2, ![128, 128]⟩ : Shape).Idx → EReal)
    (be : (⟨1, ![128]⟩ : Shape).Idx → EReal) (v : Fin 50000) (d : Fin 128) : EReal :=
  nodeBlock 0 x W b v d
    + (0 + ∑ e ∈ Finset.univ.filter (fun e : Fin 600000 => (recv (ix1 e)).toInt = (v.val : ℤ)),
        message x send recv ef W b We be e d)

/-- The whole result array. -/
def updatedArray (x : (⟨2, ![50000, 128]⟩ : Shape).Idx → EReal) (send recv : (⟨1, ![600000]⟩ : Shape).Idx → BitVec 32)
    (ef : (⟨2, ![600000, 128]⟩ : Shape).Idx → EReal) (W : (⟨2, ![128, 512]⟩ : Shape).Idx → EReal)
    (b : (⟨1, ![512]⟩ : Shape).Idx → EReal) (We : (⟨2, ![128, 128]⟩ : Shape).Idx → EReal)
    (be : (⟨1, ![128]⟩ : Shape).Idx → EReal) : (⟨2, ![50000, 128]⟩ : Shape).Idx → EReal :=
  fun i => updated x send recv ef W b We be (i 0) (i 1)

theorem updatedArray_apply (x : (⟨2, ![50000, 128]⟩ : Shape).Idx → EReal) (send recv : (⟨1, ![600000]⟩ : Shape).Idx → BitVec 32)
    (ef : (⟨2, ![600000, 128]⟩ : Shape).Idx → EReal) (W : (⟨2, ![128, 512]⟩ : Shape).Idx → EReal)
    (b : (⟨1, ![512]⟩ : Shape).Idx → EReal) (We : (⟨2, ![128, 128]⟩ : Shape).Idx → EReal)
    (be : (⟨1, ![128]⟩ : Shape).Idx → EReal) (v : Fin 50000) (d : Fin 128) :
    updatedArray x send recv ef W b We be (ix2 v d) = updated x send recv ef W b We be v d := rfl

/-- The gate written out with a quotient, one, an exponential and a negation is the gate. -/
theorem logistic_spelled (t : EReal) : Ideal.div 1 (1 + Ideal.exp (-t)) = Ideal.logistic t := rfl

end Cert.GatedMessages

end
-- ==== Proof.IndexRange.lean ====
import proofs.«428245_j28441273434190_3_alg».proof.Pre_finite_inputs
import proofs.«428245_j28441273434190_3_alg».proof.Proof.Gen.Pre_finite_inputs
import proofs.«428245_j28441273434190_3_alg».proof.Proof.Spec
import Idealize.ShloMosaic.Lib.StableHlo.Predicate
import Idealize.ShloMosaic.Lib.ReduceAll
import Idealize.ShloMosaic.Lib.ValueIdx

/-!
# The index range, read out of the precondition

The precondition is a conjunction of eight "all entries satisfy …" tests. The last two say, of the sender
array and of the receiver array, that every one of the 600000 words `w` satisfies `0 ≤ w` and `w < 50000`
as signed integers. Here the conjunction is taken apart down to those two tests, each test is read at an
arbitrary edge, and the two signed word comparisons are read as inequalities between integers.
-/

noncomputable section

namespace Cert.Pre_finite_inputs.Range

open Idealize.ShloMosaic Idealize.ShloMosaic.ValueIdx Cert.Pre_finite_inputs Cert.GatedMessages

variable [Cert.Pre_finite_inputs.Facts]

/-- The scalar shape has one index. -/
instance : Subsingleton S_.Idx := ⟨fun _ _ => funext fun d => d.elim0⟩

/-- One entry of the range test: if the bit "`0 ≤ w` and `w < 50000`" (both comparisons signed, against the
    two constants spread over the whole array) is set at index `i`, then the word at `i` lies in `[0, 50000)`. -/
theorem entry_range (hb : S_.BroadcastsInDim S600000 (![] : Fin 0 → Fin S600000.rank)) (a : IVec S600000 32)
    (i : S600000.Idx)
    (h : andi (cmpi .sge a (broadcastInDim S600000 ![] hb (constantI S_ 32 0#32)))
          (cmpi .slt a (broadcastInDim S600000 ![] hb (constantI S_ 32 50000#32))) i = 1#1) :
    0 ≤ (a i).toInt ∧ (a i).toInt < 50000 := by
  obtain ⟨hge, hlt⟩ := IntOp.andi_eq_one.1 h
  -- a constant spread over the array reads as the constant at every index
  have hge' : IntOp.cmpi .sge (a i) 0#32 = 1#1 := hge
  have hlt' : IntOp.cmpi .slt (a i) 50000#32 = 1#1 := hlt
  have h0 : (0#32 : BitVec 32).toInt = 0 := by decide
  have h5 : (50000#32 : BitVec 32).toInt = 50000 := by decide
  have e0 := IntOp.cmpi_sge.1 hge'
  have e5 := IntOp.cmpi_slt.1 hlt'
  rw [h0] at e0
  rw [h5] at e5
  exact ⟨e0, e5⟩

/-- The whole test of one array: if "all entries lie in `[0, 50000)`" came out true, every word does. -/
theorem inRange_of_all (hb : S_.BroadcastsInDim S600000 (![] : Fin 0 → Fin S600000.rank))
    (hr : S600000.ReducesTo [0] S_) (hu : 0 < S_.numel) (a : IVec S600000 32)
    (h : Host.reduce IntOp.andi
          (andi (cmpi .sge a (broadcastInDim S600000 ![] hb (constantI S_ 32 0#32)))
            (cmpi .slt a (broadcastInDim S600000 ![] hb (constantI S_ 32 50000#32))))
          (constantI S_ 1 1#1) hr hu ix0 = 1#1) : InRange a :=
  fun e => entry_range hb a (ix1 e) (Host.reduce_andi_all _ _ hr hu ix0 h (ix1 e))

/-- The precondition holds only if both index arrays name nodes throughout. -/
theorem inRange_of_pre (a0 : FVec Ideal S50000x128 .f32) (a1 a2 : IVec S600000 32) (a3 : FVec Ideal S600000x128 .f32)
    (a4 : FVec Ideal S128x512 .f32) (a5 : FVec Ideal S512 .f32) (a6 : FVec Ideal S128x128 .f32) (a7 : FVec Ideal S128 .f32)
    (h : Cert.Pre_finite_inputs.fn (F := Ideal) a0 a1 a2 a3 a4 a5 a6 a7 = fun _ => 1#1) : InRange a1 ∧ InRange a2 := by
  have hs := congrFun h ix0
  dsimp only [fn, fn_part1, fn_part2] at hs
  -- the outermost conjunction: (everything before, and the senders' test), and the receivers' test
  obtain ⟨hrest, hrecv⟩ := IntOp.andi_eq_one.1 hs
  obtain ⟨_, hsend⟩ := IntOp.andi_eq_one.1 hrest
  exact ⟨inRange_of_all _ _ _ a1 hsend, inRange_of_all _ _ _ a2 hrecv⟩

end Cert.Pre_finite_inputs.Range

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.HostGlue.lean ====
import proofs.«428245_j28441273434190_3_alg».proof.Proof.Gen.KernelIdeal.Frame
import proofs.«428245_j28441273434190_3_alg».proof.Proof.Spec
import proofs.«428245_j28441273434190_3_alg».proof.Proof.LibScatterGatherRows
import Idealize.ShloMosaic.Lib.StableHlo.Run
import Idealize.ShloMosaic.Lib.Pipeline.Value
import Idealize.ShloMosaic.Lib.ValueIdx
import Idealize.ShloMosaic.Lib.Affine
import Idealize.ShloMosaic.PureOps.Reduce
import Idealize.ShloMosaic.PureOps.Ideal

/-!
# The index glue between the two regions

Between the node map and the edge map the program clips both index arrays into `[0, 49999]` and reads the
query rows by the clipped receivers and the key and value rows by the clipped senders. A row read wraps a
negative word by `+ 50000`, reads the table at the word clamped into the table, and keeps what it read only
where the wrapped word lies in `[0, 49999]` (elsewhere it would put a not-a-number word).

`clipWords` and `takeRows` are those two pieces as functions of their operands. For an index array all of
whose words name nodes (`InRange`) the clip changes nothing (`clipWords_of_inRange`) and the read is the
table's row named by the word, kept everywhere (`takeRows_apply`).
-/

noncomputable section

namespace Cert.KernelIdeal.HostGlue

open Cert.KernelIdeal Cert.KernelIdeal.Gen Cert.GatedMessages
open Idealize.ShloMosaic Idealize.ShloMosaic.TcCoe Idealize.ShloMosaic.ValueIdx Idealize.SL.Sem Idealize.ShloMosaic.StableHlo

variable {F : FTy → Type} [FloatOps F]

/-! ## The two pieces as functions -/

/-- Every word clipped into `[0, 49999]`: the larger of the word and 0, then the smaller of that and 49999. -/
def clipWords (idx : IVec S600000 32) : IVec S600000 32 :=
  minsi (broadcastInDim S600000 ![] bcast_S_S600000 (id (constantI S_ 32 49999#32)))
    (maxsi (broadcastInDim S600000 ![] bcast_S_S600000 (id (constantI S_ 32 0#32))) idx)

/-- A negative word wrapped by `+ 50000`, any other word kept. -/
def wrapWords (idx : IVec S600000 32) : IVec S600000 32 :=
  select (cmpi .slt idx (broadcastInDim S600000 ![] bcast_S_S600000 (constantI S_ 32 0#32)))
    (addi idx (broadcastInDim S600000 ![] bcast_S_S600000 (constantI S_ 32 50000#32))) idx

/-- The wrapped words as a column of start indices. -/
def indexColumn (idx : IVec S600000 32) : IVec S600000x1 32 :=
  broadcastInDim S600000x1 ![0] bcast_S600000_S600000x1_0 (wrapWords idx)

/-- The bit "this start index lies in `[0, 49999]`". -/
def inTable (col : IVec S600000x1 32) : IVec S600000x1 1 :=
  andi (cmpi .sge col (broadcastInDim S600000x1 ![] bcast_S_S600000x1 (constantI S_ 32 0#32)))
    (cmpi .sle col (broadcastInDim S600000x1 ![0, 1] bcast_S1x1_S600000x1_0_1
      (broadcastInDim S1x1 ![1] bcast_S1_S1x1_1 (constantI S1 32 49999#32))))

/-- The rows of `table` named by `idx`: the clamped row read where the wrapped word is in the table, the
    not-a-number word elsewhere. -/
def takeRows (table : FVec F S50000x128 .f32) (idx : IVec S600000 32) : FVec F S600000x128 .f32 :=
  select
    (broadcastInDim S600000x128 ![0] bcast_S600000_S600000x128_0
      (Host.reduce IntOp.andi (inTable (indexColumn idx)) (constantI S_ 1 1#1) reducesTo_S600000x1_S600000_d1 h_S_))
    (Host.gather gather_S50000x128_S600000x1_S600000x128_1_0_n_n_0_1_1128 table (indexColumn idx))
    (broadcastInDim S600000x128 ![] bcast_S_S600000x128 (constant S_ .f32 0x7FC00000#32))

/-! ## Words in range -/

/-- A word that names a node is its own clip. -/
theorem clip_word (w : BitVec 32) (h0 : 0 ≤ w.toInt) (h1 : w.toInt < 50000) :
    IntOp.minsi 49999#32 (IntOp.maxsi 0#32 w) = w := by
  have e0 : (0#32 : BitVec 32).toInt = 0 := by decide
  have e9 : (49999#32 : BitVec 32).toInt = 49999 := by decide
  have hmax : IntOp.maxsi 0#32 w = w := by
    unfold IntOp.maxsi
    rw [if_neg]
    rw [BitVec.slt_iff_toInt_lt, e0]
    omega
  rw [hmax]
  unfold IntOp.minsi
  rw [if_neg]
  rw [BitVec.slt_iff_toInt_lt, e9]
  omega

/-- A word that names a node is not wrapped. -/
theorem wrap_word (w : BitVec 32) (h0 : 0 ≤ w.toInt) :
    Scalar.select (IntOp.cmpi .slt w 0#32) (IntOp.addi w 50000#32) w = w := by
  have e0 : (0#32 : BitVec 32).toInt = 0 := by decide
  have hc : IntOp.cmpi .slt w 0#32 ≠ 1#1 := by
    rw [Ne, IntOp.cmpi_slt, e0]
    omega
  unfold Scalar.select
  exact if_neg hc

/-- A word that names a node passes the test "in the table". -/
theorem inTable_word (w : BitVec 32) (h0 : 0 ≤ w.toInt) (h1 : w.toInt < 50000) :
    IntOp.andi (IntOp.cmpi .sge w 0#32) (IntOp.cmpi .sle w 49999#32) = 1#1 := by
  have e0 : (0#32 : BitVec 32).toInt = 0 := by decide
  have e9 : (49999#32 : BitVec 32).toInt = 49999 := by decide
  refine IntOp.andi_eq_one.2 ⟨IntOp.cmpi_sge.2 ?_, IntOp.cmpi_sle.2 ?_⟩
  · rw [e0]; exact h0
  · rw [e9]; omega

/-- Clipping an array of node names changes nothing. -/
theorem clipWords_of_inRange (idx : IVec S600000 32) (h : InRange idx) : clipWords idx = idx := by
  funext i
  obtain ⟨e, rfl⟩ : ∃ e : Fin 600000, i = ix1 e := ⟨i 0, eq_ix1 i⟩
  exact clip_word _ (h e).1 (h e).2

/-- Nor does the wrap. -/
theorem wrapWords_of_inRange (idx : IVec S600000 32) (h : InRange idx) : wrapWords idx = idx := by
  funext i
  obtain ⟨e, rfl⟩ : ∃ e : Fin 600000, i = ix1 e := ⟨i 0, eq_ix1 i⟩
  exact wrap_word _ (h e).1

/-- The start-index column at row `e` is the `e`-th word. -/
theorem indexColumn_apply (idx : IVec S600000 32) (h : InRange idx) (e : Fin 600000) (z : Fin 1) :
    indexColumn idx (ix2 e z) = idx (ix1 e) := by
  unfold indexColumn
  rw [wrapWords_of_inRange idx h]
  refine broadcastInDim_apply _ _ _ _ (ix1 e) (fun a => ?_)
  have ha : a = 0 := Subsingleton.elim _ _
  subst ha
  rfl

/-! ## The reduction "every bit set" -/

/-- A left fold by `and` from 1 over bits that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a]
    exact foldl_andi_one x hx l

/-- A reduction by `and`, started at 1, of an array of set bits is set everywhere. -/
theorem reduce_andi_of_all {s t u : Shape} {axes : List (Fin s.rank)} (x : s.Idx → BitVec 1) (init : u.Idx → BitVec 1)
    (hr : s.ReducesTo axes t) (hu : 0 < u.numel) (hinit : init (Shape.Idx.first hu) = 1#1) (hx : ∀ i, x i = 1#1)
    (j : t.Idx) : Host.reduce IntOp.andi x init hr hu j = 1#1 := by
  rw [Host.reduce_eq_foldl, hinit]
  exact foldl_andi_one x hx _

/-! ## The row read, at an index -/

/-- The row a read clamps a word to is the row the word names. -/
theorem row_of_word (w w' : BitVec 32) (hw : w = w') (hlt : min w.toInt.toNat (50000 - 1) < 50000) :
    (⟨min w.toInt.toNat (50000 - 1), hlt⟩ : Fin 50000) = rowOf w' := by
  subst hw; rfl

/-- For an index array of node names, the read's element `(e, d)` is the table's element in the row the
    `e`-th word names, column `d`: the test "in the table" passes at every edge, and the clamp changes nothing. -/
theorem takeRows_apply (table : FVec Ideal S50000x128 .f32) (idx : IVec S600000 32) (h : InRange idx)
    (e : Fin 600000) (d : Fin 128) :
    takeRows (F := Ideal) table idx (ix2 e d) = table (ix2 (rowOf (idx (ix1 e))) d) := by
  have hmask : ∀ i : S600000x1.Idx, inTable (indexColumn idx) i = 1#1 := by
    intro i
    obtain ⟨p, z, rfl⟩ : ∃ (p : Fin 600000) (z : Fin 1), i = ix2 p z := ⟨i 0, i 1, eq_ix2 i⟩
    show IntOp.andi (IntOp.cmpi .sge (indexColumn idx (ix2 p z)) 0#32) (IntOp.cmpi .sle (indexColumn idx (ix2 p z)) 49999#32) = 1#1
    rw [indexColumn_apply idx h p z]
    exact inTable_word _ (h p).1 (h p).2
  have hkeep : broadcastInDim S600000x128 ![0] bcast_S600000_S600000x128_0
      (Host.reduce IntOp.andi (inTable (indexColumn idx)) (constantI S_ 1 1#1) reducesTo_S600000x1_S600000_d1 h_S_)
      (ix2 e d) = 1#1 := by
    unfold broadcastInDim
    exact reduce_andi_of_all _ _ _ _ rfl hmask _
  unfold takeRows
  rw [select_apply, hkeep]
  show Host.gather gather_S50000x128_S600000x1_S600000x128_1_0_n_n_0_1_1128 table (indexColumn idx) (ix2 e d) = _
  rw [Cert.LibScatterGatherRows.gather_rows_ideal _ rfl rfl rfl rfl rfl table (indexColumn idx) e d (by decide),
    row_of_word _ _ (indexColumn_apply idx h e 0)]

end Cert.KernelIdeal.HostGlue

end
-- ==== Proof.HostStretches.lean ====
import proofs.«428245_j28441273434190_3_alg».proof.Proof.Gen.KernelIdeal.Frame
import proofs.«428245_j28441273434190_3_alg».proof.Proof.HostGlue
import Idealize.ShloMosaic.Lib.StableHlo.Run
import Idealize.ShloMosaic.PureOps.Ideal

/-!
# The stretches of host operations between and after the two regions

Each stretch is read from ANY buffer contents `X` it starts from: the clipped senders and receivers, the three
row reads (as `clipWords` and `takeRows` of the buffers they read), and the last stretch, which sums the messages
into a zero array at the rows the clipped receivers name and adds the node's own term.
-/

noncomputable section

namespace Cert.KernelIdeal.HostGlue

open Cert.KernelIdeal Cert.KernelIdeal.Gen Cert.GatedMessages
open Idealize.ShloMosaic Idealize.ShloMosaic.TcCoe Idealize.ShloMosaic.ValueIdx Idealize.SL.Sem Idealize.ShloMosaic.StableHlo

variable {F : FTy → Type} [FloatOps F]

/-- The senders, clipped. -/
theorem senders_clipped (X : Valuation τ sig (Elt F)) :
    StableHlo.after hostOps1_1 (StableHlo.after hostOps1 X) (Proc.devRef .tc main_v1)
      = clipWords (X (Proc.devRef .tc main_arg1)) := by
  after_results
  rfl

/-- The receivers, clipped. -/
theorem receivers_clipped (X : Valuation τ sig (Elt F)) :
    StableHlo.after hostOps1_3 (StableHlo.after hostOps1_2 X) (Proc.devRef .tc main_v2)
      = clipWords (X (Proc.devRef .tc main_arg2)) := by
  after_results
  rfl

set_option maxHeartbeats 2000000 in
set_option maxRecDepth 200000 in
/-- The query rows: the second block of the node map read by the clipped receivers. -/
theorem query_taken (X : Valuation τ sig (Elt F)) :
    StableHlo.after hostOps1_4 X (Proc.devRef .tc main_v3)
      = takeRows (X (Proc.devRef .tc main_v0_1)) (X (Proc.devRef .tc main_v2)) := by
  after_results_simp
  unfold takeRows inTable indexColumn wrapWords
  simp only [TRef.toBuf, TRef.ofBuf, cast_eq]

set_option maxHeartbeats 2000000 in
set_option maxRecDepth 200000 in
/-- The key rows: the third block read by the clipped senders. -/
theorem key_taken (X : Valuation τ sig (Elt F)) :
    StableHlo.after hostOps1_5 X (Proc.devRef .tc main_v4)
      = takeRows (X (Proc.devRef .tc main_v0_2)) (X (Proc.devRef .tc main_v1)) := by
  after_results_simp
  unfold takeRows inTable indexColumn wrapWords
  simp only [TRef.toBuf, TRef.ofBuf, cast_eq]

set_option maxHeartbeats 2000000 in
set_option maxRecDepth 200000 in
/-- The value rows: the fourth block read by the clipped senders. -/
theorem value_taken (X : Valuation τ sig (Elt F)) :
    StableHlo.after hostOps1_6 X (Proc.devRef .tc main_v5)
      = takeRows (X (Proc.devRef .tc main_v0_3)) (X (Proc.devRef .tc main_v1)) := by
  after_results_simp
  unfold takeRows inTable indexColumn wrapWords
  simp only [TRef.toBuf, TRef.ofBuf, cast_eq]

/-- The last stretch: the messages summed into a zero array at the rows the clipped receivers name, and the
    node's own term added. -/
theorem result_summed (X : Valuation τ sig (Elt F)) :
    StableHlo.after hostOps2 X (Proc.devRef .tc main_v10)
      = addf (X (Proc.devRef .tc main_v0_0))
          (Host.scatterAdd scatter_S50000x128_S600000x1_S600000x128_1_0_0_1
            (broadcastInDim S50000x128 ![] bcast_S_S50000x128 (constant S_ .f32 0x00000000#32))
            (broadcastInDim S600000x1 ![0] bcast_S600000_S600000x1_0 (X (Proc.devRef .tc main_v2)))
            (X (Proc.devRef .tc main_v6))) := by
  after_results

end Cert.KernelIdeal.HostGlue

end
-- ==== Proof.NodeBlocks.lean ====
import proofs.«428245_j28441273434190_3_alg».proof.Proof.Gen.KernelIdeal.Frame
import proofs.«428245_j28441273434190_3_alg».proof.Proof.Spec
import Idealize.ShloMosaic.Lib.Pipeline.Value
import Idealize.ShloMosaic.Lib.ValueIdx
import Idealize.ShloMosaic.PureOps.Ideal.Laws

/-!
# The node map, block by block

The first region maps the node features, 10000 rows at a time, through one affine map `x · W + b` of width 512 and
writes the four column blocks of width 128 (own term, query, key, value) to four arrays. Here: each of the four arrays,
after the region, holds `nodeBlock s` of the region's three argument arrays, at every index.

* the affine map of one block of rows, read at an index (the product as a sum over the 128 inner coordinates,
  the bias row added to every row), and its four column slices;
* what grid point `t` writes back is rows `10000 t … 10000 t + 9999` of `nodeBlock s`;
* the five blocks of rows tile the 50000 rows, so the whole array is `nodeBlock s`.
-/

open scoped BigOperators

noncomputable section

namespace Cert.KernelIdeal.NodeBlocks

open Idealize.ShloMosaic Idealize.ShloMosaic.TcCoe Idealize.ShloMosaic.ValueIdx Cert.KernelIdeal Cert.KernelIdeal.Gen Cert.GatedMessages

/-! ## The product of a block of rows with the weights, at an index -/

/-- Left operand, axis 0: the output's row. -/
theorem lhs_axis0 (i : S10000x512.Idx) (q : dot_S10000x128_S128x512_S10000x512_1_0_0_1_n_n.contr.Idx) :
    (dot_S10000x128_S128x512_S10000x512_1_0_0_1_n_n.lhsIdx i q 0).val = (i 0).val := by
  unfold DotDims.lhsIdx
  rw [dif_neg (show ¬(0 : Fin S10000x128.rank) ∈ dot_S10000x128_S128x512_S10000x512_1_0_0_1_n_n.lhsBatch by decide), dif_pos (show (0 : Fin S10000x128.rank) ∈ dot_S10000x128_S128x512_S10000x512_1_0_0_1_n_n.lhsNonContracting by decide)]
  rfl

/-- Left operand, axis 1: the inner coordinate. -/
theorem lhs_axis1 (i : S10000x512.Idx) (q : dot_S10000x128_S128x512_S10000x512_1_0_0_1_n_n.contr.Idx) :
    (dot_S10000x128_S128x512_S10000x512_1_0_0_1_n_n.lhsIdx i q 1).val = (q ⟨0, by decide⟩).val :=
  dot_S10000x128_S128x512_S10000x512_1_0_0_1_n_n.lhsIdx_val_of_single rfl i q

/-- Right operand, axis 0: the inner coordinate. -/
theorem rhs_axis0 (i : S10000x512.Idx) (q : dot_S10000x128_S128x512_S10000x512_1_0_0_1_n_n.contr.Idx) :
    (dot_S10000x128_S128x512_S10000x512_1_0_0_1_n_n.rhsIdx i q 0).val = (q ⟨0, by decide⟩).val :=
  dot_S10000x128_S128x512_S10000x512_1_0_0_1_n_n.rhsIdx_val_of_single rfl i q

/-- Right operand, axis 1: the output's column. -/
theorem rhs_axis1 (i : S10000x512.Idx) (q : dot_S10000x128_S128x512_S10000x512_1_0_0_1_n_n.contr.Idx) :
    (dot_S10000x128_S128x512_S10000x512_1_0_0_1_n_n.rhsIdx i q 1).val = (i 1).val := by
  unfold DotDims.rhsIdx
  rw [dif_neg (show ¬(1 : Fin S128x512.rank) ∈ dot_S10000x128_S128x512_S10000x512_1_0_0_1_n_n.rhsBatch by decide), dif_pos (show (1 : Fin S128x512.rank) ∈ dot_S10000x128_S128x512_S10000x512_1_0_0_1_n_n.rhsNonContracting by decide)]
  rfl

/-- The product into a zero accumulator, at row `p` and column `j`: the sum over the inner coordinate. -/
theorem product_apply (x0 : FVec Ideal S10000x128 .f32) (x1 : FVec Ideal S128x512 .f32) (p : Fin 10000) (j : Fin 512) :
    matmul dot_S10000x128_S128x512_S10000x512_1_0_0_1_n_n none x0 x1 (constant (F := Ideal) S10000x512 .f32 0x00000000#32) (ix2 p j)
      = ∑ k : Fin 128, x0 (ix2 p k) * x1 (ix2 k j) := by
  simp only [matmul]
  rw [Ideal.matmul_constant_zero_apply, ← Equiv.sum_comp (ValueIdx.contrEquiv1 dot_S10000x128_S128x512_S10000x512_1_0_0_1_n_n 128 rfl rfl).symm]
  refine Finset.sum_congr rfl fun k _ => ?_
  have hk := ValueIdx.contrEquiv1_symm_val dot_S10000x128_S128x512_S10000x512_1_0_0_1_n_n 128 rfl rfl k
  have el : dot_S10000x128_S128x512_S10000x512_1_0_0_1_n_n.lhsIdx (ix2 p j) ((ValueIdx.contrEquiv1 dot_S10000x128_S128x512_S10000x512_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x512_S10000x512_1_0_0_1_n_n.rhsIdx (ix2 p j) ((ValueIdx.contrEquiv1 dot_S10000x128_S128x512_S10000x512_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-! ## The bias row, added to every row -/

/-- The bias as one row, repeated over the rows, at row `p` and column `j`: entry `j` of the bias. -/
theorem bias_apply (x2 : FVec Ideal S512 .f32) (p : Fin 10000) (j : Fin 512) :
    broadcastTo S10000x512 (shapeCast S1x512 x2 shapeCasts_S512_S1x512) broadcasts_S1x512_S10000x512 (ix2 p j) = x2 (ix1 j) := by
  refine (broadcastTo_apply _ broadcasts_S1x512_S10000x512 (ix2 p j) (ix2 (⟨0, Nat.one_pos⟩ : Fin 1) j) (fun a => match a with
    | ⟨0, _⟩ => by show 0 = if (1 : Nat) = 1 then 0 else _; rw [if_pos rfl]
    | ⟨1, _⟩ => by show j.val = if (512 : Nat) = 1 then 0 else j.val; rw [if_neg (by decide)])).trans ?_
  exact shapeCast_apply x2 shapeCasts_S512_S1x512 (ix2 (⟨0, Nat.one_pos⟩ : Fin 1) j) (ix1 j) (by
    rw [Shape.rowMajor_val_one, Shape.rowMajor_val_two]
    show j.val = 0 * 512 + j.val
    omega)

/-- The affine map of one block of rows, at row `p` and column `j`. -/
theorem affine_block_apply (x0 : Vec Ideal S10000x128 .f32) (x1 : Vec Ideal S128x512 .f32) (x2 : Vec Ideal S512 .f32)
    (p : Fin 10000) (j : Fin 512) :
    k0_pay1 (F := Ideal) x0 x1 x2 (ix2 p j) = affine x0 x1 x2 p j := by
  unfold k0_pay1 affine
  rw [addf_apply, product_apply, bias_apply]

/-! ## The four column blocks -/

/-- Column `q` of block `s`, as a column of the full width 512. -/
abbrev col (s : Fin 4) (q : Fin 128) : Fin 512 := ⟨q.val + 128 * s.val, by have := q.isLt; have := s.isLt; omega⟩

/-- Columns 0 … 127 of the affine map of one block of rows. -/
theorem own_slice_apply (x0 : Vec Ideal S10000x128 .f32) (x1 : Vec Ideal S128x512 .f32) (x2 : Vec Ideal S512 .f32)
    (p : Fin 10000) (q : Fin 128) :
    k0_pay2 (F := Ideal) x0 x1 x2 (ix2 p q) = affine x0 x1 x2 p (col 0 q) := by
  unfold k0_pay2
  refine (extractStridedSlice_apply ![0, 0] _ slices_S10000x512_o0_0_S10000x128 (ix2 p q) (ix2 p (col 0 q)) (fun a => match a with
    | ⟨0, _⟩ => by show p.val = 0 + p.val; omega
    | ⟨1, _⟩ => by show q.val + 128 * 0 = 0 + q.val; omega)).trans ?_
  exact affine_block_apply x0 x1 x2 p (col 0 q)

/-- Columns 128 … 255. -/
theorem query_slice_apply (x0 : Vec Ideal S10000x128 .f32) (x1 : Vec Ideal S128x512 .f32) (x2 : Vec Ideal S512 .f32)
    (p : Fin 10000) (q : Fin 128) :
    k0_pay3 (F := Ideal) x0 x1 x2 (ix2 p q) = affine x0 x1 x2 p (col 1 q) := by
  unfold k0_pay3
  refine (extractStridedSlice_apply ![0, 128] _ slices_S10000x512_o0_128_S10000x128 (ix2 p q) (ix2 p (col 1 q)) (fun a => match a with
    | ⟨0, _⟩ => by show p.val = 0 + p.val; omega
    | ⟨1, _⟩ => by show q.val + 128 * 1 = 128 + q.val; omega)).trans ?_
  exact affine_block_apply x0 x1 x2 p (col 1 q)

/-- Columns 256 … 383. -/
theorem key_slice_apply (x0 : Vec Ideal S10000x128 .f32) (x1 : Vec Ideal S128x512 .f32) (x2 : Vec Ideal S512 .f32)
    (p : Fin 10000) (q : Fin 128) :
    k0_pay4 (F := Ideal) x0 x1 x2 (ix2 p q) = affine x0 x1 x2 p (col 2 q) := by
  unfold k0_pay4
  refine (extractStridedSlice_apply ![0, 256] _ slices_S10000x512_o0_256_S10000x128 (ix2 p q) (ix2 p (col 2 q)) (fun a => match a with
    | ⟨0, _⟩ => by show p.val = 0 + p.val; omega
    | ⟨1, _⟩ => by show q.val + 128 * 2 = 256 + q.val; omega)).trans ?_
  exact affine_block_apply x0 x1 x2 p (col 2 q)

/-- Columns 384 … 511. -/
theorem value_slice_apply (x0 : Vec Ideal S10000x128 .f32) (x1 : Vec Ideal S128x512 .f32) (x2 : Vec Ideal S512 .f32)
    (p : Fin 10000) (q : Fin 128) :
    k0_pay5 (F := Ideal) x0 x1 x2 (ix2 p q) = affine x0 x1 x2 p (col 3 q) := by
  unfold k0_pay5
  refine (extractStridedSlice_apply ![0, 384] _ slices_S10000x512_o0_384_S10000x128 (ix2 p q) (ix2 p (col 3 q)) (fun a => match a with
    | ⟨0, _⟩ => by show p.val = 0 + p.val; omega
    | ⟨1, _⟩ => by show q.val + 128 * 3 = 384 + q.val; omega)).trans ?_
  exact affine_block_apply x0 x1 x2 p (col 3 q)

/-! ## What a grid point writes back -/

/-- Block `s` of the node map, as a whole array of 50000 rows. -/
def blockArray (s : Fin 4) (x : S50000x128.Idx → EReal) (W : S128x512.Idx → EReal) (b : S512.Idx → EReal) :
    S50000x128.Idx → EReal :=
  fun i => nodeBlock s x W b (i 0) (i 1)

theorem zeros2 : (![0, 0] : Fin 2 → Nat) = fun _ => 0 := funext fun a => by fin_cases a <;> rfl
theorem zeros1 : (![0] : Fin 1 → Nat) = fun _ => 0 := funext fun a => by fin_cases a; rfl

/-- The affine map of a block of rows that is rows `10000 r … 10000 r + 9999` of `x`, with the weights and the bias
    whole, is `nodeBlock s` at those rows. -/
theorem rows_block (s : Fin 4) (x : S50000x128.Idx → EReal) (W : S128x512.Idx → EReal) (b : S512.Idx → EReal)
    (x0 : S10000x128.Idx → EReal) (x1 : S128x512.Idx → EReal) (x2 : S512.Idx → EReal) (r : Nat) (hr : r ≤ 4)
    (hx0 : ∀ (p : Fin 10000) (k : Fin 128), x0 (ix2 p k) = x (ix2 ⟨r * 10000 + p.val, by have := p.isLt; omega⟩ k))
    (hx1 : x1 = W) (hx2 : x2 = b) (p : Fin 10000) (q : Fin 128) :
    affine x0 x1 x2 p (col s q) = nodeBlock s x W b ⟨r * 10000 + p.val, by have := p.isLt; omega⟩ q := by
  subst hx1 hx2
  unfold nodeBlock affine
  refine congrArg (· + _) (Finset.sum_congr rfl fun k _ => ?_)
  rw [hx0]

/-- The windows' index maps over the five grid points: the block of rows read is the block of rows written, block `t`;
    the weights and the bias are read whole. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ t.val ≤ 4 :=
  (by decide +kernel : ∀ t : Fin grid0.N, _)

variable (V : (c : Dev nD) → (b : Ref sig .tc) → Buf (Elt Ideal) ((c : Thread nD τ).loc b))

/-- The block of rows point `t` reads is rows `10000 t … 10000 t + 9999` of the node features. -/
theorem rows_read (c : Dev nD) (t : Fin cfg0.N) (p : Fin 10000) (k : Fin 128) :
    iblk0 (F := Ideal) V c 0 t (ix2 p k) = V c main_arg0 (ix2 ⟨t.val * 10000 + p.val, by have := p.isLt; have := (index_facts t).2.2.2.2.2.2.2.2.2.2.2.2.2; omega⟩ k) := by
  obtain ⟨e0, e1, -⟩ := index_facts t
  show V c main_arg0 (((cfg0.win 0).blk t).view.emb (ix2 p k)) = _
  refine congrArg _ (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The weights are read whole at every point. -/
theorem weights_read (c : Dev nD) (t : Fin cfg0.N) : iblk0 (F := Ideal) V c 1 t = V c main_arg4 := by
  obtain ⟨-, -, e2, e3, -⟩ := index_facts t
  funext y
  show V c main_arg4 (((cfg0.win 1).blk t).view.emb y) = V c main_arg4 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 512 + 1 * (y 1).val = (y 1).val; omega

/-- The bias is read whole at every point. -/
theorem bias_read (c : Dev nD) (t : Fin cfg0.N) : iblk0 (F := Ideal) V c 2 t = V c main_arg5 := by
  obtain ⟨-, -, -, -, e4, -⟩ := index_facts t
  funext y
  show V c main_arg5 (((cfg0.win 2).blk t).view.emb y) = V c main_arg5 y
  refine congrArg _ (funext fun a => Fin.ext ?_)
  match a with
  | ⟨0, _⟩ => show win0_2.index t (0 : Fin 1) * 512 + 1 * (y 0).val = (y 0).val; omega

/-! ## Window 3: the nodes' own terms -/

/-- Point `t` writes back rows `10000 t … 10000 t + 9999` of block 0 of the node map. -/
theorem own_written (c : Dev nD) (t : Fin cfg0.N) :
    (dat0 (F := Ideal) V c).flushed 3 t
      = ((cfg0.win 3).blk t).view.read (Elt Ideal) (blockArray 0 (V c main_arg0) (V c main_arg4) (V c main_arg5)) := by
  show (cfg0.win 3).cut (grid0.coords t) ((dat0 V c).after 3 t) = _
  rw [after0_3]
  unfold out0_3
  rw [View.canon_unit_zero zeros2]
  simp only [View.ld_unit_zero (S := S10000x128) zeros2, View.ld_unit_zero (S := S128x512) zeros2, View.ld_unit_zero (S := S512) zeros1]
  funext j
  obtain ⟨p, q, rfl⟩ : ∃ (p : Fin 10000) (q : Fin 128), j = ix2 p q := ⟨j 0, j 1, eq_ix2 j⟩
  have ht := (index_facts t).2.2.2.2.2.2.2.2.2.2.2.2.2
  obtain ⟨-, -, -, -, -, e0, e1, -⟩ := index_facts t
  have hemb : ((cfg0.win 3).blk t).view.emb (ix2 p q) = ix2 ⟨t.val * 10000 + p.val, by have := p.isLt; omega⟩ q :=
    funext fun a => Fin.ext (by
      match a with
      | ⟨0, _⟩ => show win0_3.index t (0 : Fin 2) * 10000 + 1 * p.val = t.val * 10000 + p.val; omega
      | ⟨1, _⟩ => show win0_3.index t (1 : Fin 2) * 128 + 1 * q.val = q.val; omega)
  show k0_pay2 (F := Ideal) (iblk0 V c 0 t) (iblk0 V c 1 t) (iblk0 V c 2 t) (ix2 p q)
    = blockArray 0 (V c main_arg0) (V c main_arg4) (V c main_arg5) (((cfg0.win 3).blk t).view.emb (ix2 p q))
  rw [hemb]
  refine (own_slice_apply _ _ _ p q).trans ?_
  exact rows_block 0 (V c main_arg0) (V c main_arg4) (V c main_arg5) _ _ _ t.val ht (rows_read V c t) (weights_read V c t) (bias_read V c t) p q

/-- An index is in point `t`'s block iff each coordinate is in the block's range on its axis. -/
theorem own_mem_blk (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v0_0).slice (win0_3.rect t)).set ↔ _
  rw [View.set_slice_whole, Rect.mem_set_unit]
  exact Iff.rfl

/-- The five blocks of rows tile the array: row `r` is in the block of point `r / 10000`. -/
theorem own_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 10000 :=
    ⟨⟨(i 0).val / 10000, by show (i 0).val / 10000 < 5; omega⟩, rfl⟩
  obtain ⟨-, -, -, -, -, e0, e1, -⟩ := index_facts t
  refine ⟨t, flush0_3 t, ?_⟩
  rw [own_mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- After the region the array of window 3 holds block 0 of the node map of the region's arguments. -/
theorem own_term (c : Dev nD) (n : Fin 50000) (d : Fin 128) :
    (dat0 (F := Ideal) V c).arrAt 3 cfg0.N (ix2 n d) = nodeBlock 0 (V c main_arg0) (V c main_arg4) (V c main_arg5) n d :=
  congrFun ((dat0 (F := Ideal) V c).arrAt_eq_of_cover 3 (blockArray 0 (V c main_arg0) (V c main_arg4) (V c main_arg5))
    (fun t _ => own_written V c t) own_cover) (ix2 n d)

/-! ## Window 4: the queries -/

/-- Point `t` writes back rows `10000 t … 10000 t + 9999` of block 1 of the node map. -/
theorem query_written (c : Dev nD) (t : Fin cfg0.N) :
    (dat0 (F := Ideal) V c).flushed 4 t
      = ((cfg0.win 4).blk t).view.read (Elt Ideal) (blockArray 1 (V c main_arg0) (V c main_arg4) (V c main_arg5)) := by
  show (cfg0.win 4).cut (grid0.coords t) ((dat0 V c).after 4 t) = _
  rw [after0_4]
  unfold out0_4
  rw [View.canon_unit_zero zeros2]
  simp only [View.ld_unit_zero (S := S10000x128) zeros2, View.ld_unit_zero (S := S128x512) zeros2, View.ld_unit_zero (S := S512) zeros1]
  funext j
  obtain ⟨p, q, rfl⟩ : ∃ (p : Fin 10000) (q : Fin 128), j = ix2 p q := ⟨j 0, j 1, eq_ix2 j⟩
  have ht := (index_facts t).2.2.2.2.2.2.2.2.2.2.2.2.2
  obtain ⟨-, -, -, -, -, -, -, e0, e1, -⟩ := index_facts t
  have hemb : ((cfg0.win 4).blk t).view.emb (ix2 p q) = ix2 ⟨t.val * 10000 + p.val, by have := p.isLt; omega⟩ q :=
    funext fun a => Fin.ext (by
      match a with
      | ⟨0, _⟩ => show win0_4.index t (0 : Fin 2) * 10000 + 1 * p.val = t.val * 10000 + p.val; omega
      | ⟨1, _⟩ => show win0_4.index t (1 : Fin 2) * 128 + 1 * q.val = q.val; omega)
  show k0_pay3 (F := Ideal) (iblk0 V c 0 t) (iblk0 V c 1 t) (iblk0 V c 2 t) (ix2 p q)
    = blockArray 1 (V c main_arg0) (V c main_arg4) (V c main_arg5) (((cfg0.win 4).blk t).view.emb (ix2 p q))
  rw [hemb]
  refine (query_slice_apply _ _ _ p q).trans ?_
  exact rows_block 1 (V c main_arg0) (V c main_arg4) (V c main_arg5) _ _ _ t.val ht (rows_read V c t) (weights_read V c t) (bias_read V c t) p q

/-- An index is in point `t`'s block iff each coordinate is in the block's range on its axis. -/
theorem query_mem_blk (t : Fin cfg0.N) (i : S50000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v0_1).slice (win0_4.rect t)).set ↔ _
  rw [View.set_slice_whole, Rect.mem_set_unit]
  exact Iff.rfl

/-- The five blocks of rows tile the array: row `r` is in the block of point `r / 10000`. -/
theorem query_cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 10000 :=
    ⟨⟨(i 0).val / 10000, by show (i 0).val / 10000 < 5; omega⟩, rfl⟩
  obtain ⟨-, -, -, -, -, -, -, e0, e1, -⟩ := index_facts t
  refine ⟨t, flush0_4 t, ?_⟩
  rw [query_mem_blk]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-- After the region the array of window 4 holds block 1 of the node map of the region's arguments. -/
theorem query (c : Dev nD) (n : Fin 50000) (d : Fin 128) :
    (dat0 (F := Ideal) V c).arrAt 4 cfg0.N (ix2 n d) = nodeBlock 1 (V c main_arg0) (V c main_arg4) (V c main_arg5) n d :=
  congrFun ((dat0 (F := Ideal) V c).arrAt_eq_of_cover 4 (blockArray 1 (V c main_arg0) (V c main_arg4) (V c main_arg5))
    (fun t _ => query_written V c t) query_cover) (ix2 n d)

/-! ## Window 5: the keys -/

/-- Point `t` writes back rows `10000 t … 10000 t + 9999` of block 2 of the node map. -/
theorem key_written (c : Dev nD) (t : Fin cfg0.N) :
    (dat0 (F := Ideal) V c).flushed 5 t
      = ((cfg0.win 5).blk t).view.read (Elt Ideal) (blockArray 2 (V c main_arg0) (V c main_arg4) (V c main_arg5)) := by
  show (cfg0.win 5).cut (grid0.coords t) ((dat0 V c).after 5 t) = _
  rw [after0_5]
  unfold out0_5
  rw [View.canon_unit_zero zeros2]
  simp only [View.ld_unit_zero (S := S10000x128) zeros2, View.ld_unit_zero (S := S128x512) zeros2, View.ld_unit_zero (S := S512) zeros1]
  funext j
  obtain ⟨p, q, rfl⟩ : ∃ (p : Fin 10000) (q : Fin 128), j = ix2 p q := ⟨j 0, j 1, eq_ix2 j⟩
  have ht := (index_facts t).2.2.2.2.2.2.2.2.2.2.2.2.2
  obtain ⟨-, -, -, -, -, -, -, -, -, e0, e1, -⟩ := index_facts t
  have hemb : ((cfg0.win 5).blk t).view.emb (ix2 p q) = ix2 ⟨t.val * 10000 + p.val, by have := p.isLt; omega⟩ q :=
    funext fun a => Fin.ext (by
      match a with
      | ⟨0, _⟩ => show win0_5.index t (0 : Fin 2) * 10000 + 1 * p.val = t.val * 10000 + p.val; omega
      | ⟨1, _⟩ => show win0_5.index t (1 : Fin 2) * 128 + 1 * q.val = q.val; omega)
  show k0_pay4 (F := Ideal) (iblk0 V c 0 t) (iblk0 V c 1 t) (iblk0 V c 2 t) (ix2 p q)
    = blockArray 2 (V c main_arg0) (V c main_arg4) (V c main_arg5) (((cfg0.win 5).blk t).view.emb (ix2 p q))
  rw [hemb]
  refine (key_slice_apply _ _ _ p q).trans ?_
  exact rows_block 2 (V c main_arg0) (V c main_arg4) (V c main_arg5) _ _ _ t.val ht (rows_read V c t) (weights_read V c t) (bias_read V c t) p q

/-- An index is in point `t`'s block iff each coordinate is in the block's range on its axis. -/
theorem key_mem_blk (t : Fin cfg0.N) (i : S50000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v0_2).slice (win0_5.rect t)).set ↔ _
  rw [View.set_slice_whole, Rect.mem_set_unit]
  exact Iff.rfl

/-- The five blocks of rows tile the array: row `r` is in the block of point `r / 10000`. -/
theorem key_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 10000 :=
    ⟨⟨(i 0).val / 10000, by show (i 0).val / 10000 < 5; omega⟩, rfl⟩
  obtain ⟨-, -, -, -, -, -, -, -, -, e0, e1, -⟩ := index_facts t
  refine ⟨t, flush0_5 t, ?_⟩
  rw [key_mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- After the region the array of window 5 holds block 2 of the node map of the region's arguments. -/
theorem key (c : Dev nD) (n : Fin 50000) (d : Fin 128) :
    (dat0 (F := Ideal) V c).arrAt 5 cfg0.N (ix2 n d) = nodeBlock 2 (V c main_arg0) (V c main_arg4) (V c main_arg5) n d :=
  congrFun ((dat0 (F := Ideal) V c).arrAt_eq_of_cover 5 (blockArray 2 (V c main_arg0) (V c main_arg4) (V c main_arg5))
    (fun t _ => key_written V c t) key_cover) (ix2 n d)

/-! ## Window 6: the values -/

/-- Point `t` writes back rows `10000 t … 10000 t + 9999` of block 3 of the node map. -/
theorem value_written (c : Dev nD) (t : Fin cfg0.N) :
    (dat0 (F := Ideal) V c).flushed 6 t
      = ((cfg0.win 6).blk t).view.read (Elt Ideal) (blockArray 3 (V c main_arg0) (V c main_arg4) (V c main_arg5)) := by
  show (cfg0.win 6).cut (grid0.coords t) ((dat0 V c).after 6 t) = _
  rw [after0_6]
  unfold out0_6
  rw [View.canon_unit_zero zeros2]
  simp only [View.ld_unit_zero (S := S10000x128) zeros2, View.ld_unit_zero (S := S128x512) zeros2, View.ld_unit_zero (S := S512) zeros1]
  funext j
  obtain ⟨p, q, rfl⟩ : ∃ (p : Fin 10000) (q : Fin 128), j = ix2 p q := ⟨j 0, j 1, eq_ix2 j⟩
  have ht := (index_facts t).2.2.2.2.2.2.2.2.2.2.2.2.2
  obtain ⟨-, -, -, -, -, -, -, -, -, -, -, e0, e1, -⟩ := index_facts t
  have hemb : ((cfg0.win 6).blk t).view.emb (ix2 p q) = ix2 ⟨t.val * 10000 + p.val, by have := p.isLt; omega⟩ q :=
    funext fun a => Fin.ext (by
      match a with
      | ⟨0, _⟩ => show win0_6.index t (0 : Fin 2) * 10000 + 1 * p.val = t.val * 10000 + p.val; omega
      | ⟨1, _⟩ => show win0_6.index t (1 : Fin 2) * 128 + 1 * q.val = q.val; omega)
  show k0_pay5 (F := Ideal) (iblk0 V c 0 t) (iblk0 V c 1 t) (iblk0 V c 2 t) (ix2 p q)
    = blockArray 3 (V c main_arg0) (V c main_arg4) (V c main_arg5) (((cfg0.win 6).blk t).view.emb (ix2 p q))
  rw [hemb]
  refine (value_slice_apply _ _ _ p q).trans ?_
  exact rows_block 3 (V c main_arg0) (V c main_arg4) (V c main_arg5) _ _ _ t.val ht (rows_read V c t) (weights_read V c t) (bias_read V c t) p q

/-- An index is in point `t`'s block iff each coordinate is in the block's range on its axis. -/
theorem value_mem_blk (t : Fin cfg0.N) (i : S50000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v0_3).slice (win0_6.rect t)).set ↔ _
  rw [View.set_slice_whole, Rect.mem_set_unit]
  exact Iff.rfl

/-- The five blocks of rows tile the array: row `r` is in the block of point `r / 10000`. -/
theorem value_cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 10000 :=
    ⟨⟨(i 0).val / 10000, by show (i 0).val / 10000 < 5; omega⟩, rfl⟩
  obtain ⟨-, -, -, -, -, -, -, -, -, -, -, e0, e1, -⟩ := index_facts t
  refine ⟨t, flush0_6 t, ?_⟩
  rw [value_mem_blk]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- After the region the array of window 6 holds block 3 of the node map of the region's arguments. -/
theorem value (c : Dev nD) (n : Fin 50000) (d : Fin 128) :
    (dat0 (F := Ideal) V c).arrAt 6 cfg0.N (ix2 n d) = nodeBlock 3 (V c main_arg0) (V c main_arg4) (V c main_arg5) n d :=
  congrFun ((dat0 (F := Ideal) V c).arrAt_eq_of_cover 6 (blockArray 3 (V c main_arg0) (V c main_arg4) (V c main_arg5))
    (fun t _ => value_written V c t) value_cover) (ix2 n d)

end Cert.KernelIdeal.NodeBlocks

end
-- ==== Proof.EdgeMessages.lean ====
import proofs.«428245_j28441273434190_3_alg».proof.Proof.Gen.KernelIdeal.Frame
import proofs.«428245_j28441273434190_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

/-!
# The edge region: every entry of its result array

The region maps blocks of 10000 edges at a time. For edge `e` and component `d` it forms

  `σ ((query e d + key e d) + (∑ k, features e k · We k d + be d)) · value e d`,   `σ t = 1 / (1 + e^(−t))`,

where query, key and value are the per-edge rows the region is handed. First the block's arithmetic is read at one
entry (row `p`, column `q` of a block); then block `t` is placed at rows `10000 t … 10000 t + 9999` of the array;
the 60 blocks cover the 600000 rows, so the array after the region is that function of the six arrays it reads,
entry by entry, whatever the buffers held when the region was entered.
-/

namespace Cert.KernelIdeal.EdgeMessages

open Idealize.ShloMosaic Idealize.ShloMosaic.TcCoe Idealize.ShloMosaic.ValueIdx Cert.KernelIdeal Cert.KernelIdeal.Gen Cert.GatedMessages
open scoped BigOperators

/-! ## The block product: its operand indices, axis by axis -/

/-- The left operand's row is the output's row. -/
theorem lhs_axis0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the shared coordinate. -/
theorem lhs_axis1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the shared coordinate. -/
theorem rhs_axis0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column is the output's column. -/
theorem rhs_axis1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Row `p`, column `q` of a block of edge features times the weights, accumulated from zero: the sum over the
    128 shared coordinates of the products. -/
theorem block_product_apply (x0 : FVec Ideal S10000x128 .f32) (x1 : FVec Ideal S128x128 .f32) (p : Fin 10000) (q : Fin 128) :
    matmul dot_S10000x128_S128x128_S10000x128_1_0_0_1_n_n none x0 x1 (constant (F := Ideal) S10000x128 .f32 0x00000000#32) (ix2 p q)
      = ∑ k : Fin 128, x0 (ix2 p k) * x1 (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias, cast to one row and repeated over the block's rows, reads its entry at the column. -/
theorem bias_rows_apply (x3 : FVec Ideal S128 .f32) (p : Fin 10000) (q : Fin 128) :
    broadcastTo S10000x128 (shapeCast S1x128 x3 shapeCasts_S128_S1x128) broadcasts_S1x128_S10000x128 (ix2 p q) = x3 (ix1 q) := by
  rw [broadcastTo_1b_ab_apply, shapeCast_a_1a_apply]

/-- The gate of a block, entry by entry. -/
theorem gate_apply {s : Shape} {φ : FTy} (a : FVec Ideal s φ) (i : s.Idx) : logistic a i = Ideal.logistic (a i) := rfl

/-- The block's payload at row `p`, column `q`: the gate of (query + key) + (edge features times weights + bias),
    times the value. -/
theorem payload_apply (x0 : Vec Ideal S10000x128 .f32) (x1 : Vec Ideal S128x128 .f32) (x3 : Vec Ideal S128 .f32)
    (x7 x9 x14 : Vec Ideal S10000x128 .f32) (p : Fin 10000) (q : Fin 128) :
    k1_pay1 x0 x1 x3 x7 x9 x14 (ix2 p q)
      = Ideal.logistic ((x7 (ix2 p q) + x9 (ix2 p q)) + ((∑ k : Fin 128, x0 (ix2 p k) * x1 (ix2 k q)) + x3 (ix1 q))) * x14 (ix2 p q) := by
  unfold k1_pay1
  rw [shapeCast_self, shapeCast_self, shapeCast_self]
  rw [mulf_apply, gate_apply, addf_apply, addf_apply, addf_apply, block_product_apply, bias_rows_apply]

/-! ## From blocks to the array -/

/-- The zero offsets of a whole rank-2 block, as a constant function. -/
theorem zero_offsets : (![0, 0] : Fin 2 → Nat) = fun _ => 0 := funext fun a => by fin_cases a <;> rfl
/-- The zero offset of a whole rank-1 block, as a constant function. -/
theorem zero_offset : (![0] : Fin 1 → Nat) = fun _ => 0 := funext fun a => by fin_cases a <;> rfl

/-- The array of messages as one function of the six arrays the region reads: edge features, queries, keys,
    values (each already gathered per edge), the edge weights and the edge bias. -/
def messages (ef qr ky vl : S600000x128.Idx → Elt Ideal .f32) (We : S128x128.Idx → Elt Ideal .f32)
    (be : S128.Idx → Elt Ideal .f32) : S600000x128.Idx → Elt Ideal .f32 :=
  fun i => Ideal.logistic ((qr i + ky i) + affine ef We be (i 0) (i 1)) * vl i

/-- The array of messages at edge `e`, component `d`. -/
theorem messages_apply (ef qr ky vl : S600000x128.Idx → Elt Ideal .f32) (We : S128x128.Idx → Elt Ideal .f32)
    (be : S128.Idx → Elt Ideal .f32) (e : Fin 600000) (d : Fin 128) :
    messages ef qr ky vl We be (ix2 e d)
      = Ideal.logistic ((qr (ix2 e d) + ky (ix2 e d)) + affine ef We be e d) * vl (ix2 e d) := rfl

/-- The block indices at each of the 60 points: the four edge-indexed inputs and the output sit at block
    (t, 0); the weights and the bias at block 0. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p` of block `t` is row `10000 t + p` of the array. -/
def edgeRow (t : Fin cfg1.N) (p : Fin 10000) : Fin 600000 :=
  ⟨10000 * t.val + p.val, by have h : t.val < grid1.N := t.isLt; rw [N_1] at h; have := p.isLt; omega⟩

section Reads
variable (V : (c : Dev nD) → (b : Ref sig .tc) → Buf (Elt Ideal) ((c : Thread nD τ).loc b))

/-- Entry (p, k) of block `t` of the edge features is row `10000 t + p`, column `k` of the array. -/
theorem read_features (c : Dev nD) (t : Fin cfg1.N) (p : Fin 10000) (k : Fin 128) :
    iblk1 (F := Ideal) V c 0 t (ix2 p k) = V c main_arg3 (ix2 (edgeRow t p) k) := by
  obtain ⟨e0, e1, -⟩ := block_indices t
  unfold iblk1
  show V c main_arg3 (((cfg1.win 0).blk t).view.emb (ix2 p k)) = V c main_arg3 (ix2 (edgeRow t p) k)
  refine congrArg (V c main_arg3) (funext fun a => Fin.ext ?_)
  match a with
  | ⟨0, _⟩ => show win1_0.index t (0 : Fin 2) * 10000 + 1 * p.val = 10000 * t.val + p.val; omega
  | ⟨1, _⟩ => show win1_0.index t (1 : Fin 2) * 128 + 1 * k.val = k.val; omega

/-- Likewise for the queries. -/
theorem read_queries (c : Dev nD) (t : Fin cfg1.N) (p : Fin 10000) (k : Fin 128) :
    iblk1 (F := Ideal) V c 1 t (ix2 p k) = V c main_v3 (ix2 (edgeRow t p) k) := by
  obtain ⟨-, -, e0, e1, -⟩ := block_indices t
  unfold iblk1
  show V c main_v3 (((cfg1.win 1).blk t).view.emb (ix2 p k)) = V c main_v3 (ix2 (edgeRow t p) k)
  refine congrArg (V c main_v3) (funext fun a => Fin.ext ?_)
  match a with
  | ⟨0, _⟩ => show win1_1.index t (0 : Fin 2) * 10000 + 1 * p.val = 10000 * t.val + p.val; omega
  | ⟨1, _⟩ => show win1_1.index t (1 : Fin 2) * 128 + 1 * k.val = k.val; omega

/-- Likewise for the keys. -/
theorem read_keys (c : Dev nD) (t : Fin cfg1.N) (p : Fin 10000) (k : Fin 128) :
    iblk1 (F := Ideal) V c 2 t (ix2 p k) = V c main_v4 (ix2 (edgeRow t p) k) := by
  obtain ⟨-, -, -, -, e0, e1, -⟩ := block_indices t
  unfold iblk1
  show V c main_v4 (((cfg1.win 2).blk t).view.emb (ix2 p k)) = V c main_v4 (ix2 (edgeRow t p) k)
  refine congrArg (V c main_v4) (funext fun a => Fin.ext ?_)
  match a with
  | ⟨0, _⟩ => show win1_2.index t (0 : Fin 2) * 10000 + 1 * p.val = 10000 * t.val + p.val; omega
  | ⟨1, _⟩ => show win1_2.index t (1 : Fin 2) * 128 + 1 * k.val = k.val; omega

/-- Likewise for the values. -/
theorem read_values (c : Dev nD) (t : Fin cfg1.N) (p : Fin 10000) (k : Fin 128) :
    iblk1 (F := Ideal) V c 3 t (ix2 p k) = V c main_v5 (ix2 (edgeRow t p) k) := by
  obtain ⟨-, -, -, -, -, -, e0, e1, -⟩ := block_indices t
  unfold iblk1
  show V c main_v5 (((cfg1.win 3).blk t).view.emb (ix2 p k)) = V c main_v5 (ix2 (edgeRow t p) k)
  refine congrArg (V c main_v5) (funext fun a => Fin.ext ?_)
  match a with
  | ⟨0, _⟩ => show win1_3.index t (0 : Fin 2) * 10000 + 1 * p.val = 10000 * t.val + p.val; omega
  | ⟨1, _⟩ => show win1_3.index t (1 : Fin 2) * 128 + 1 * k.val = k.val; omega

/-- The weights' block is the whole array at every point. -/
theorem read_weights (c : Dev nD) (t : Fin cfg1.N) (k q : Fin 128) :
    iblk1 (F := Ideal) V c 4 t (ix2 k q) = V c main_arg6 (ix2 k q) := by
  obtain ⟨-, -, -, -, -, -, -, -, e0, e1, -⟩ := block_indices t
  unfold iblk1
  show V c main_arg6 (((cfg1.win 4).blk t).view.emb (ix2 k q)) = V c main_arg6 (ix2 k q)
  refine congrArg (V c main_arg6) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- The bias's block is the whole array at every point. -/
theorem read_bias (c : Dev nD) (t : Fin cfg1.N) (q : Fin 128) :
    iblk1 (F := Ideal) V c 5 t (ix1 q) = V c main_arg7 (ix1 q) := by
  obtain ⟨-, -, -, -, -, -, -, -, -, -, e0, -⟩ := block_indices t
  unfold iblk1
  show V c main_arg7 (((cfg1.win 5).blk t).view.emb (ix1 q)) = V c main_arg7 (ix1 q)
  refine congrArg (V c main_arg7) (funext fun a => Fin.ext ?_)
  match a with
  | ⟨0, _⟩ => show win1_5.index t (0 : Fin 1) * 128 + 1 * q.val = q.val; omega

/-- Where entry (p, q) of the output's block `t` sits in the array. -/
theorem out_emb (t : Fin cfg1.N) (p : Fin 10000) (q : Fin 128) :
    ((cfg1.win 6).blk t).view.emb (ix2 p q) = ix2 (edgeRow t p) q := by
  obtain ⟨-, -, -, -, -, -, -, -, -, -, -, e0, e1⟩ := block_indices t
  refine funext fun a => Fin.ext ?_
  match a with
  | ⟨0, _⟩ => show win1_6.index t (0 : Fin 2) * 10000 + 1 * p.val = 10000 * t.val + p.val; omega
  | ⟨1, _⟩ => show win1_6.index t (1 : Fin 2) * 128 + 1 * q.val = q.val; omega

/-- What point `t` writes back is block `t` of the array of messages. -/
theorem flushed_eq (c : Dev nD) (t : Fin cfg1.N) :
    (dat1 (F := Ideal) V c).flushed 6 t = ((cfg1.win 6).blk t).view.read (Elt Ideal)
      (messages (V c main_arg3) (V c main_v3) (V c main_v4) (V c main_v5) (V c main_arg6) (V c main_arg7)) := by
  show (cfg1.win 6).cut (grid1.coords t) ((dat1 V c).after 6 t) = _
  rw [after1_6]
  unfold out1_6
  rw [View.canon_unit_zero zero_offsets]
  simp only [View.ld_unit_zero (S := S10000x128) zero_offsets, View.ld_unit_zero (S := S128x128) zero_offsets,
    View.ld_unit_zero (S := S128) zero_offset]
  refine funext fun (j : S10000x128.Idx) => ?_
  obtain ⟨p, q, rfl⟩ : ∃ (p : Fin 10000) (q : Fin 128), j = ix2 p q := ⟨j 0, j 1, eq_ix2 j⟩
  show k1_pay1 (iblk1 V c 0 t) (iblk1 V c 4 t) (iblk1 V c 5 t) (iblk1 V c 1 t) (iblk1 V c 2 t) (iblk1 V c 3 t) (ix2 p q)
    = messages (V c main_arg3) (V c main_v3) (V c main_v4) (V c main_v5) (V c main_arg6) (V c main_arg7)
        (((cfg1.win 6).blk t).view.emb (ix2 p q))
  rw [payload_apply, out_emb, messages_apply, read_queries, read_keys, read_values, read_bias]
  unfold affine
  simp only [read_features, read_weights]

end Reads

/-- An index of the array is in point `t`'s block iff each coordinate is in the block's range on its axis. -/
theorem mem_block (t : Fin cfg1.N) (i : S600000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v6).slice (win1_6.rect t)).set ↔ _
  rw [View.set_slice_whole, Rect.mem_set_unit]
  exact Iff.rfl

/-- Every edge row is in some point's block: row `r` in that of point `r / 10000`. -/
theorem cover (i : S600000x128.Idx) :
    ∃ t : Fin cfg1.N, (cfg1.win 6).flush t = true ∧ i ∈ ((cfg1.win 6).blk t).view.set := by
  have hi0 : (i 0).val < 600000 := (i 0).isLt
  have hi1 : (i 1).val < 128 := (i 1).isLt
  have ht : (i 0).val / 10000 < grid1.N := by rw [N_1]; omega
  obtain ⟨-, -, -, -, -, -, -, -, -, -, -, e0, e1⟩ := block_indices ⟨(i 0).val / 10000, ht⟩
  refine ⟨⟨(i 0).val / 10000, ht⟩, flush1_6 _, ?_⟩
  rw [mem_block]
  intro a
  match a with
  | ⟨0, _⟩ =>
    show win1_6.index ⟨(i 0).val / 10000, ht⟩ (0 : Fin 2) * 10000 ≤ (i 0).val ∧ (i 0).val < win1_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_6.index ⟨(i 0).val / 10000, ht⟩ (1 : Fin 2) * 128 ≤ (i 1).val ∧ (i 1).val < win1_6.index ⟨(i 0).val / 10000, ht⟩ (1 : Fin 2) * 128 + 128
    rw [e1]; omega

/-! ## The region's result -/

/-- After the edge region, whatever the buffers held when it was entered (`V`), the result array holds at edge `e`,
    component `d`, the gate of (query + key) + edge term, times the value. -/
theorem edge_message (V : (c : Dev nD) → (b : Ref sig .tc) → Buf (Elt Ideal) ((c : Thread nD τ).loc b)) (c : Dev nD)
    (e : Fin 600000) (d : Fin 128) :
    (dat1 (F := Ideal) V c).arrAt 6 cfg1.N (ix2 e d)
      = HMul.hMul (α := EReal) (β := EReal) (γ := EReal)
          (Ideal.logistic (HAdd.hAdd (α := EReal) (β := EReal) (γ := EReal) (V c main_v3 (ix2 e d)) (V c main_v4 (ix2 e d))
            + affine (V c main_arg3) (V c main_arg6) (V c main_arg7) e d))
          (V c main_v5 (ix2 e d)) := by
  have h := (dat1 (F := Ideal) V c).arrAt_eq_of_cover 6
    (messages (V c main_arg3) (V c main_v3) (V c main_v4) (V c main_v5) (V c main_arg6) (V c main_arg7))
    (fun t _ => flushed_eq V c t) cover
  rw [h, messages_apply]

end Cert.KernelIdeal.EdgeMessages

end
-- ==== Proof.KernelValue.lean ====
import proofs.«428245_j28441273434190_3_alg».proof.Proof.Gen.KernelIdeal.Frame
import proofs.«428245_j28441273434190_3_alg».proof.Proof.Spec
import proofs.«428245_j28441273434190_3_alg».proof.Proof.LibScatterGatherRows
import proofs.«428245_j28441273434190_3_alg».proof.Proof.HostGlue
import proofs.«428245_j28441273434190_3_alg».proof.Proof.HostStretches
import proofs.«428245_j28441273434190_3_alg».proof.Proof.NodeBlocks
import proofs.«428245_j28441273434190_3_alg».proof.Proof.EdgeMessages
import Idealize.ShloMosaic.Lib.StableHlo.Run
import Idealize.ShloMosaic.Lib.Pipeline.Value
import Idealize.ShloMosaic.Lib.ValueIdx
import Idealize.ShloMosaic.PureOps.Ideal

/-!
# What the idealized kernel leaves in its result array

The program is: the node map (first region), the index glue, the edge map (second region), the sum of the
messages into the nodes and the node's own term added. Its buffer contents are followed from the launch
through these five stretches. A buffer that a stretch does not write keeps its contents; the four blocks of
the node map, the three row reads and the messages are read at an index; at the end the result's element
`(v, d)` is the specification's `updated`, provided every index word names a node.
-/

open scoped BigOperators

noncomputable section

namespace Cert.KernelIdeal.KernelValue

open Cert.KernelIdeal Cert.KernelIdeal.Gen Cert.KernelIdeal.HostGlue Cert.GatedMessages
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A buffer no operation of the stretches in front writes holds what it held before them: the stretches are
    peeled one at a time, each operation's written buffer being another one. -/
local macro "kept" : tactic =>
  `(tactic| (
    repeat
      first
      | with_reducible rfl
      | refine Eq.trans (StableHlo.after_of_forall_not_mem _ _ (List.forall_iff_forall_mem.mp (by
          simp only [hostOps1, hostOps1_1, hostOps1_2, hostOps1_3, hostOps1_4, hostOps1_5, hostOps1_6, hostOps2,
            List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))) ?_))

/-! ## Buffers carried unchanged across the index glue -/

theorem own_kept : W8 m ρ c (Proc.devRef .tc main_v0_0) = W1 m ρ c (Proc.devRef .tc main_v0_0) := by kept
theorem query_kept : W5 m ρ c (Proc.devRef .tc main_v0_1) = W1 m ρ c (Proc.devRef .tc main_v0_1) := by kept
theorem key_kept : W6 m ρ c (Proc.devRef .tc main_v0_2) = W1 m ρ c (Proc.devRef .tc main_v0_2) := by kept
theorem value_kept : W7 m ρ c (Proc.devRef .tc main_v0_3) = W1 m ρ c (Proc.devRef .tc main_v0_3) := by kept
theorem edges_kept : W8 m ρ c (Proc.devRef .tc main_arg3) = W1 m ρ c (Proc.devRef .tc main_arg3) := by kept
theorem weights_kept : W8 m ρ c (Proc.devRef .tc main_arg6) = W1 m ρ c (Proc.devRef .tc main_arg6) := by kept
theorem bias_kept : W8 m ρ c (Proc.devRef .tc main_arg7) = W1 m ρ c (Proc.devRef .tc main_arg7) := by kept
theorem receivers_kept : W3 m ρ c (Proc.devRef .tc main_arg2) = W1 m ρ c (Proc.devRef .tc main_arg2) := by kept
theorem clipped_senders_kept6 : W6 m ρ c (Proc.devRef .tc main_v1) = W3 m ρ c (Proc.devRef .tc main_v1) := by kept
theorem clipped_senders_kept7 : W7 m ρ c (Proc.devRef .tc main_v1) = W3 m ρ c (Proc.devRef .tc main_v1) := by kept
theorem clipped_receivers_kept : W8 m ρ c (Proc.devRef .tc main_v2) = W5 m ρ c (Proc.devRef .tc main_v2) := by kept
theorem query_rows_kept : W8 m ρ c (Proc.devRef .tc main_v3) = W6 m ρ c (Proc.devRef .tc main_v3) := by kept
theorem key_rows_kept : W8 m ρ c (Proc.devRef .tc main_v4) = W7 m ρ c (Proc.devRef .tc main_v4) := by kept

/-! ## The launch contents under the first region -/

theorem W1_senders : W1 m ρ c (Proc.devRef .tc main_arg1) = m ((c : Thread nD τ).loc main_arg1) := by
  have h : W1 m ρ c (Proc.devRef .tc main_arg1) = W0 m ρ c (Proc.devRef .tc main_arg1) := W1_of_ne m ρ c main_arg1 (by decide)
  exact h
theorem W1_receivers : W1 m ρ c (Proc.devRef .tc main_arg2) = m ((c : Thread nD τ).loc main_arg2) := by
  have h : W1 m ρ c (Proc.devRef .tc main_arg2) = W0 m ρ c (Proc.devRef .tc main_arg2) := W1_of_ne m ρ c main_arg2 (by decide)
  exact h
theorem W1_edges : W1 m ρ c (Proc.devRef .tc main_arg3) = m ((c : Thread nD τ).loc main_arg3) := by
  have h : W1 m ρ c (Proc.devRef .tc main_arg3) = W0 m ρ c (Proc.devRef .tc main_arg3) := W1_of_ne m ρ c main_arg3 (by decide)
  exact h
theorem W1_weights : W1 m ρ c (Proc.devRef .tc main_arg6) = m ((c : Thread nD τ).loc main_arg6) := by
  have h : W1 m ρ c (Proc.devRef .tc main_arg6) = W0 m ρ c (Proc.devRef .tc main_arg6) := W1_of_ne m ρ c main_arg6 (by decide)
  exact h
theorem W1_bias : W1 m ρ c (Proc.devRef .tc main_arg7) = m ((c : Thread nD τ).loc main_arg7) := by
  have h : W1 m ρ c (Proc.devRef .tc main_arg7) = W0 m ρ c (Proc.devRef .tc main_arg7) := W1_of_ne m ρ c main_arg7 (by decide)
  exact h

/-! ## The four blocks of the node map after the first region -/

theorem W1_own (n : Fin 50000) (d : Fin 128) :
    W1 m ρ c (Proc.devRef .tc main_v0_0) (ix2 n d)
      = nodeBlock 0 (m ((c : Thread nD τ).loc main_arg0)) (m ((c : Thread nD τ).loc main_arg4)) (m ((c : Thread nD τ).loc main_arg5)) n d := by
  rw [show W1 m ρ c (Proc.devRef .tc main_v0_0) = (dat0 (V0 m ρ) c).arrAt 3 cfg0.N from W1_arr m ρ c 3]
  exact NodeBlocks.own_term (V0 m ρ) c n d

theorem W1_query (n : Fin 50000) (d : Fin 128) :
    W1 m ρ c (Proc.devRef .tc main_v0_1) (ix2 n d)
      = nodeBlock 1 (m ((c : Thread nD τ).loc main_arg0)) (m ((c : Thread nD τ).loc main_arg4)) (m ((c : Thread nD τ).loc main_arg5)) n d := by
  rw [show W1 m ρ c (Proc.devRef .tc main_v0_1) = (dat0 (V0 m ρ) c).arrAt 4 cfg0.N from W1_arr m ρ c 4]
  exact NodeBlocks.query (V0 m ρ) c n d

theorem W1_key (n : Fin 50000) (d : Fin 128) :
    W1 m ρ c (Proc.devRef .tc main_v0_2) (ix2 n d)
      = nodeBlock 2 (m ((c : Thread nD τ).loc main_arg0)) (m ((c : Thread nD τ).loc main_arg4)) (m ((c : Thread nD τ).loc main_arg5)) n d := by
  rw [show W1 m ρ c (Proc.devRef .tc main_v0_2) = (dat0 (V0 m ρ) c).arrAt 5 cfg0.N from W1_arr m ρ c 5]
  exact NodeBlocks.key (V0 m ρ) c n d

theorem W1_value (n : Fin 50000) (d : Fin 128) :
    W1 m ρ c (Proc.devRef .tc main_v0_3) (ix2 n d)
      = nodeBlock 3 (m ((c : Thread nD τ).loc main_arg0)) (m ((c : Thread nD τ).loc main_arg4)) (m ((c : Thread nD τ).loc main_arg5)) n d := by
  rw [show W1 m ρ c (Proc.devRef .tc main_v0_3) = (dat0 (V0 m ρ) c).arrAt 6 cfg0.N from W1_arr m ρ c 6]
  exact NodeBlocks.value (V0 m ρ) c n d

/-! ## The clipped index arrays are the index arrays -/

theorem senders_unclipped (h1 : InRange (m ((c : Thread nD τ).loc main_arg1))) :
    W3 m ρ c (Proc.devRef .tc main_v1) = m ((c : Thread nD τ).loc main_arg1) := by
  rw [show W3 m ρ c (Proc.devRef .tc main_v1) = clipWords (W1 m ρ c (Proc.devRef .tc main_arg1)) from
    senders_clipped (W1 m ρ c), W1_senders]
  exact clipWords_of_inRange _ h1

theorem receivers_unclipped (h2 : InRange (m ((c : Thread nD τ).loc main_arg2))) :
    W5 m ρ c (Proc.devRef .tc main_v2) = m ((c : Thread nD τ).loc main_arg2) := by
  rw [show W5 m ρ c (Proc.devRef .tc main_v2) = clipWords (W3 m ρ c (Proc.devRef .tc main_arg2)) from
    receivers_clipped (W3 m ρ c), receivers_kept, W1_receivers]
  exact clipWords_of_inRange _ h2

/-! ## The three row reads -/

theorem query_rows (h2 : InRange (m ((c : Thread nD τ).loc main_arg2))) (e : Fin 600000) (d : Fin 128) :
    W8 m ρ c (Proc.devRef .tc main_v3) (ix2 e d)
      = nodeBlock 1 (m ((c : Thread nD τ).loc main_arg0)) (m ((c : Thread nD τ).loc main_arg4)) (m ((c : Thread nD τ).loc main_arg5))
          (rowOf (m ((c : Thread nD τ).loc main_arg2) (ix1 e))) d := by
  rw [query_rows_kept, show W6 m ρ c (Proc.devRef .tc main_v3)
      = takeRows (F := Ideal) (W5 m ρ c (Proc.devRef .tc main_v0_1)) (W5 m ρ c (Proc.devRef .tc main_v2)) from query_taken (W5 m ρ c),
    receivers_unclipped m ρ c h2, takeRows_apply _ _ h2, query_kept]
  exact W1_query m ρ c _ d

theorem key_rows (h1 : InRange (m ((c : Thread nD τ).loc main_arg1))) (e : Fin 600000) (d : Fin 128) :
    W8 m ρ c (Proc.devRef .tc main_v4) (ix2 e d)
      = nodeBlock 2 (m ((c : Thread nD τ).loc main_arg0)) (m ((c : Thread nD τ).loc main_arg4)) (m ((c : Thread nD τ).loc main_arg5))
          (rowOf (m ((c : Thread nD τ).loc main_arg1) (ix1 e))) d := by
  rw [key_rows_kept, show W7 m ρ c (Proc.devRef .tc main_v4)
      = takeRows (F := Ideal) (W6 m ρ c (Proc.devRef .tc main_v0_2)) (W6 m ρ c (Proc.devRef .tc main_v1)) from key_taken (W6 m ρ c),
    clipped_senders_kept6, senders_unclipped m ρ c h1, takeRows_apply _ _ h1, key_kept]
  exact W1_key m ρ c _ d

theorem value_rows (h1 : InRange (m ((c : Thread nD τ).loc main_arg1))) (e : Fin 600000) (d : Fin 128) :
    W8 m ρ c (Proc.devRef .tc main_v5) (ix2 e d)
      = nodeBlock 3 (m ((c : Thread nD τ).loc main_arg0)) (m ((c : Thread nD τ).loc main_arg4)) (m ((c : Thread nD τ).loc main_arg5))
          (rowOf (m ((c : Thread nD τ).loc main_arg1) (ix1 e))) d := by
  rw [show W8 m ρ c (Proc.devRef .tc main_v5)
      = takeRows (F := Ideal) (W7 m ρ c (Proc.devRef .tc main_v0_3)) (W7 m ρ c (Proc.devRef .tc main_v1)) from value_taken (W7 m ρ c),
    clipped_senders_kept7, senders_unclipped m ρ c h1, takeRows_apply _ _ h1, value_kept]
  exact W1_value m ρ c _ d

/-! ## The messages after the second region -/

theorem messages (h1 : InRange (m ((c : Thread nD τ).loc main_arg1))) (h2 : InRange (m ((c : Thread nD τ).loc main_arg2)))
    (e : Fin 600000) (d : Fin 128) :
    W9 m ρ c (Proc.devRef .tc main_v6) (ix2 e d)
      = message (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) e d := by
  rw [show W9 m ρ c (Proc.devRef .tc main_v6) = (dat1 (V8 m ρ) c).arrAt 6 cfg1.N from W9_arr m ρ c 6,
    EdgeMessages.edge_message (V8 m ρ) c e d]
  show HMul.hMul (α := EReal) (β := EReal) (γ := EReal)
      (Ideal.logistic (HAdd.hAdd (α := EReal) (β := EReal) (γ := EReal)
          (W8 m ρ c (Proc.devRef .tc main_v3) (ix2 e d)) (W8 m ρ c (Proc.devRef .tc main_v4) (ix2 e d))
        + affine (W8 m ρ c (Proc.devRef .tc main_arg3)) (W8 m ρ c (Proc.devRef .tc main_arg6)) (W8 m ρ c (Proc.devRef .tc main_arg7)) e d))
      (W8 m ρ c (Proc.devRef .tc main_v5) (ix2 e d)) = _
  rw [query_rows m ρ c h2, key_rows m ρ c h1, value_rows m ρ c h1, edges_kept, weights_kept, bias_kept,
    W1_edges, W1_weights, W1_bias]
  rfl

/-! ## The result -/

/-- THE RESULT ARRAY of the idealized kernel is the specification's, when every index word names a node. -/
theorem kernel_updated (h1 : InRange (m ((c : Thread nD τ).loc main_arg1))) (h2 : InRange (m ((c : Thread nD τ).loc main_arg2))) :
    W10 m ρ c (Proc.devRef .tc main_v10)
      = updatedArray (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  funext i
  obtain ⟨v, d, rfl⟩ : ∃ (v : Fin 50000) (d : Fin 128), i = ix2 v d := ⟨i 0, i 1, eq_ix2 i⟩
  rw [updatedArray_apply]
  unfold updated
  rw [show W10 m ρ c (Proc.devRef .tc main_v10) = _ from result_summed (W9 m ρ c)]
  rw [addf_apply]
  -- the node's own term: not touched by the second region, nor by the glue
  have hown : W9 m ρ c (Proc.devRef .tc main_v0_0) (ix2 v d)
      = nodeBlock 0 (m ((c : Thread nD τ).loc main_arg0)) (m ((c : Thread nD τ).loc main_arg4)) (m ((c : Thread nD τ).loc main_arg5)) v d := by
    rw [show W9 m ρ c (Proc.devRef .tc main_v0_0) = W8 m ρ c (Proc.devRef .tc main_v0_0) from W9_of_ne m ρ c main_v0_0 (by decide),
      own_kept]
    exact W1_own m ρ c v d
  -- the clipped receivers, as the sum's index column
  have hrecv : W9 m ρ c (Proc.devRef .tc main_v2) = m ((c : Thread nD τ).loc main_arg2) := by
    rw [show W9 m ρ c (Proc.devRef .tc main_v2) = W8 m ρ c (Proc.devRef .tc main_v2) from W9_of_ne m ρ c main_v2 (by decide),
      clipped_receivers_kept]
    exact receivers_unclipped m ρ c h2
  rw [hown, hrecv]
  refine congrArg (nodeBlock 0 _ _ _ v d + ·) ?_
  refine (Cert.LibScatterGatherRows.scatterAdd_rows (φ := .f32) (N := 50000) (D := 128) (n := 600000) (w := 32) _ rfl rfl rfl rfl
    _ _ _ v d).trans ?_
  have hz : broadcastInDim S50000x128 ![] bcast_S_S50000x128 (constant (F := Ideal) S_ .f32 0x00000000#32) (ix2 v d) = 0 :=
    Ideal.ofBits_zero_f32
  have hcol : ∀ e : Fin 600000, broadcastInDim S600000x1 ![0] bcast_S600000_S600000x1_0
      (m ((c : Thread nD τ).loc main_arg2)) (ix2 e 0) = m ((c : Thread nD τ).loc main_arg2) (ix1 e) := by
    intro e
    refine broadcastInDim_apply _ _ _ _ (ix1 e) (fun a => ?_)
    have ha : a = 0 := Subsingleton.elim _ _
    subst ha
    rfl
  rw [hz]
  simp only [hcol]
  refine congrArg ((0 : EReal) + ·) ?_
  exact Finset.sum_congr rfl fun e _ => messages m ρ c h1 h2 e d

end Cert.KernelIdeal.KernelValue

end
-- ==== Proof.ReferenceValue.lean ====
import proofs.«428245_j28441273434190_3_alg».proof.Proof.Gen.ReferenceIdeal.Read
import proofs.«428245_j28441273434190_3_alg».proof.Proof.Spec
import proofs.«428245_j28441273434190_3_alg».proof.Proof.LibScatterGatherRows
import Idealize.ShloMosaic.Lib.ValueIdx
import Idealize.ShloMosaic.PureOps.Ideal.Laws

/-!
# The reference program's result is the specification

The reference computes, one array operation at a time, one round of gated message passing. Read at an
element `(v, d)` its result is the node's own block of the node map plus the sum, over the edges whose
receiver word is `v`, of the edge's message; this is `updated` of the specification, provided every
index word names a node (then the wrap of a negative index is the identity and a row read's clamp is too).
-/

open scoped BigOperators

noncomputable section

namespace Cert.ReferenceIdeal.RefValue

open Idealize.ShloMosaic Idealize.ShloMosaic.ValueIdx Cert.ReferenceIdeal Cert.ReferenceIdeal.Read
  Cert.GatedMessages Cert.LibScatterGatherRows

/-! ## Constants and index words -/

/-- The pattern of `1.0` denotes `1`. -/
theorem ofBits_one_f32 : Ideal.ofBits .f32 0x3F800000#32 = 1 := by
  simp [Ideal.ofBits, Ideal.ieee, -EReal.coe_mul]; norm_num

/-- A word that is not negative as a signed integer is kept by the wrap `w < 0 ? w + 50000 : w`. -/
theorem wrap_of_nonneg (w : BitVec 32) (h0 : 0 ≤ w.toInt) :
    Scalar.select (IntOp.cmpi .slt w 0#32) (IntOp.addi w 50000#32) w = w := by
  have hc : IntOp.cmpi .slt w 0#32 = 0#1 := by
    unfold IntOp.cmpi
    have : w.slt 0#32 = false := by
      simp only [BitVec.slt, BitVec.toInt_zero, decide_eq_false_iff_not, not_lt]
      exact h0
    rw [this]; rfl
  rw [hc, select_zero]

/-- The receivers' index column of the first row read, at edge `e`: the word itself. -/
theorem col_v13 (x2 : (⟨S600000, .i32⟩ : BufTy).Contents (Elt Ideal)) (h2 : InRange x2) (e : Fin 600000) :
    val_main_v13 (F := Ideal) x2 (ix2 e 0) = x2 (ix1 e) := by
  have hi : idx_main_v13 (ix2 e (0 : Fin 1)) = ix1 e := by
    funext a; match a with | ⟨0, _⟩ => rfl
  rw [val_main_v13_apply, hi, val_main_v12_apply, val_main_v9_apply, val_main_v11_apply, val_main_v8_apply,
    val_main_v10_apply, val_main_c_apply, val_main_c_0_apply]
  exact wrap_of_nonneg _ (h2 e).1

/-- The senders' index column of the second row read, at edge `e`: the word itself. -/
theorem col_v20 (x1 : (⟨S600000, .i32⟩ : BufTy).Contents (Elt Ideal)) (h1 : InRange x1) (e : Fin 600000) :
    val_main_v20 (F := Ideal) x1 (ix2 e 0) = x1 (ix1 e) := by
  have hi : idx_main_v20 (ix2 e (0 : Fin 1)) = ix1 e := by
    funext a; match a with | ⟨0, _⟩ => rfl
  rw [val_main_v20_apply, hi, val_main_v19_apply, val_main_v16_apply, val_main_v18_apply, val_main_v15_apply,
    val_main_v17_apply, val_main_c_1_apply, val_main_c_2_apply]
  exact wrap_of_nonneg _ (h1 e).1

/-- The senders' index column of the third row read, at edge `e`: the word itself. -/
theorem col_v32 (x1 : (⟨S600000, .i32⟩ : BufTy).Contents (Elt Ideal)) (h1 : InRange x1) (e : Fin 600000) :
    val_main_v32 (F := Ideal) x1 (ix2 e 0) = x1 (ix1 e) := by
  have hi : idx_main_v32 (ix2 e (0 : Fin 1)) = ix1 e := by
    funext a; match a with | ⟨0, _⟩ => rfl
  rw [val_main_v32_apply, hi, val_main_v31_apply, val_main_v28_apply, val_main_v30_apply, val_main_v27_apply,
    val_main_v29_apply, val_main_c_3_apply, val_main_c_4_apply]
  exact wrap_of_nonneg _ (h1 e).1

/-! ## The node map and the edge term -/

/-- The node map before it is cut into blocks: row `n`, column `j` of `x · W + b`. -/
theorem node_v3 (x0 : (⟨S50000x128, .f32⟩ : BufTy).Contents (Elt Ideal)) (x4 : (⟨S128x512, .f32⟩ : BufTy).Contents (Elt Ideal))
    (x5 : (⟨S512, .f32⟩ : BufTy).Contents (Elt Ideal)) (n : Fin 50000) (j : Fin 512) :
    val_main_v3 (F := Ideal) x0 x4 x5 (ix2 n j) = affine x0 x4 x5 n j := by
  have hl : ∀ k : Fin 128, lidx_main_v0 (ix2 n j) k = ix2 n k := by
    intro k; funext a; match a with | ⟨0, _⟩ => rfl | ⟨1, _⟩ => rfl
  have hr : ∀ k : Fin 128, ridx_main_v0 (ix2 n j) k = ix2 k j := by
    intro k; funext a; match a with | ⟨0, _⟩ => rfl | ⟨1, _⟩ => rfl
  have hb : idx_main_v1 (idx_main_v2 (ix2 n j)) = ix1 j := by
    funext a; match a with | ⟨0, _⟩ => rfl
  rw [val_main_v3_apply, val_main_v0_apply, val_main_v2_apply, val_main_v1_apply, hb]
  unfold affine
  simp only [hl, hr]
  rfl

/-- The node's own block. -/
theorem node_v4 (x0 : (⟨S50000x128, .f32⟩ : BufTy).Contents (Elt Ideal)) (x4 : (⟨S128x512, .f32⟩ : BufTy).Contents (Elt Ideal))
    (x5 : (⟨S512, .f32⟩ : BufTy).Contents (Elt Ideal)) (n : Fin 50000) (d : Fin 128) :
    val_main_v4 (F := Ideal) x0 x4 x5 (ix2 n d) = nodeBlock 0 x0 x4 x5 n d := by
  have hi : ∀ h, idx_main_v4 (ix2 n d) = ix2 n (⟨d.val + 128 * (0 : Fin 4).val, h⟩ : Fin 512) := by
    intro h; funext a
    match a with
    | ⟨0, _⟩ => rfl
    | ⟨1, _⟩ => exact Fin.ext (by show d.val = d.val + 128 * 0; omega)
  unfold nodeBlock
  rw [val_main_v4_apply, hi, node_v3]

/-- The query block. -/
theorem node_v5 (x0 : (⟨S50000x128, .f32⟩ : BufTy).Contents (Elt Ideal)) (x4 : (⟨S128x512, .f32⟩ : BufTy).Contents (Elt Ideal))
    (x5 : (⟨S512, .f32⟩ : BufTy).Contents (Elt Ideal)) (n : Fin 50000) (d : Fin 128) :
    val_main_v5 (F := Ideal) x0 x4 x5 (ix2 n d) = nodeBlock 1 x0 x4 x5 n d := by
  have hi : ∀ h, idx_main_v5 (ix2 n d) = ix2 n (⟨d.val + 128 * (1 : Fin 4).val, h⟩ : Fin 512) := by
    intro h; funext a
    match a with
    | ⟨0, _⟩ => rfl
    | ⟨1, _⟩ => exact Fin.ext (by show 128 + d.val = d.val + 128 * 1; omega)
  unfold nodeBlock
  rw [val_main_v5_apply, hi, node_v3]

/-- The key block. -/
theorem node_v6 (x0 : (⟨S50000x128, .f32⟩ : BufTy).Contents (Elt Ideal)) (x4 : (⟨S128x512, .f32⟩ : BufTy).Contents (Elt Ideal))
    (x5 : (⟨S512, .f32⟩ : BufTy).Contents (Elt Ideal)) (n : Fin 50000) (d : Fin 128) :
    val_main_v6 (F := Ideal) x0 x4 x5 (ix2 n d) = nodeBlock 2 x0 x4 x5 n d := by
  have hi : ∀ h, idx_main_v6 (ix2 n d) = ix2 n (⟨d.val + 128 * (2 : Fin 4).val, h⟩ : Fin 512) := by
    intro h; funext a
    match a with
    | ⟨0, _⟩ => rfl
    | ⟨1, _⟩ => exact Fin.ext (by show 256 + d.val = d.val + 128 * 2; omega)
  unfold nodeBlock
  rw [val_main_v6_apply, hi, node_v3]

/-- The value block. -/
theorem node_v7 (x0 : (⟨S50000x128, .f32⟩ : BufTy).Contents (Elt Ideal)) (x4 : (⟨S128x512, .f32⟩ : BufTy).Contents (Elt Ideal))
    (x5 : (⟨S512, .f32⟩ : BufTy).Contents (Elt Ideal)) (n : Fin 50000) (d : Fin 128) :
    val_main_v7 (F := Ideal) x0 x4 x5 (ix2 n d) = nodeBlock 3 x0 x4 x5 n d := by
  have hi : ∀ h, idx_main_v7 (ix2 n d) = ix2 n (⟨d.val + 128 * (3 : Fin 4).val, h⟩ : Fin 512) := by
    intro h; funext a
    match a with
    | ⟨0, _⟩ => rfl
    | ⟨1, _⟩ => exact Fin.ext (by show 384 + d.val = d.val + 128 * 3; omega)
  unfold nodeBlock
  rw [val_main_v7_apply, hi, node_v3]

/-- The edge term: row `e`, column `d` of `edge features · We + be`. -/
theorem edge_v25 (x3 : (⟨S600000x128, .f32⟩ : BufTy).Contents (Elt Ideal)) (x6 : (⟨S128x128, .f32⟩ : BufTy).Contents (Elt Ideal))
    (x7 : (⟨S128, .f32⟩ : BufTy).Contents (Elt Ideal)) (e : Fin 600000) (d : Fin 128) :
    val_main_v25 (F := Ideal) x3 x6 x7 (ix2 e d) = affine x3 x6 x7 e d := by
  have hl : ∀ k : Fin 128, lidx_main_v22 (ix2 e d) k = ix2 e k := by
    intro k; funext a; match a with | ⟨0, _⟩ => rfl | ⟨1, _⟩ => rfl
  have hr : ∀ k : Fin 128, ridx_main_v22 (ix2 e d) k = ix2 k d := by
    intro k; funext a; match a with | ⟨0, _⟩ => rfl | ⟨1, _⟩ => rfl
  have hb : idx_main_v23 (idx_main_v24 (ix2 e d)) = ix1 d := by
    funext a; match a with | ⟨0, _⟩ => rfl
  rw [val_main_v25_apply, val_main_v22_apply, val_main_v24_apply, val_main_v23_apply, hb]
  unfold affine
  simp only [hl, hr]
  rfl

/-! ## The three row reads -/

/-- The row a read clamps a word to is `rowOf` of the word. -/
theorem row_eq (w w' : BitVec 32) (hw : w = w') (h : min w.toInt.toNat (50000 - 1) < 50000) :
    (⟨min w.toInt.toNat (50000 - 1), h⟩ : Fin 50000) = rowOf w' := by
  subst hw; rfl

/-- The query of the receiver of edge `e`. -/
theorem gather_v14 (x0 : (⟨S50000x128, .f32⟩ : BufTy).Contents (Elt Ideal)) (x2 : (⟨S600000, .i32⟩ : BufTy).Contents (Elt Ideal))
    (x4 : (⟨S128x512, .f32⟩ : BufTy).Contents (Elt Ideal)) (x5 : (⟨S512, .f32⟩ : BufTy).Contents (Elt Ideal))
    (h2 : InRange x2) (e : Fin 600000) (d : Fin 128) :
    val_main_v14 (F := Ideal) x0 x2 x4 x5 (ix2 e d) = nodeBlock 1 x0 x4 x5 (rowOf (x2 (ix1 e))) d := by
  unfold val_main_v14
  refine (gather_rows_ideal (φ := .f32) (N := 50000) (D := 128) (n := 600000) (w := 32) _ rfl rfl rfl rfl rfl
    _ _ e d (by decide)).trans ?_
  rw [row_eq _ _ (col_v13 x2 h2 e)]
  exact node_v5 x0 x4 x5 (rowOf (x2 (ix1 e))) d

/-- The key of the sender of edge `e`. -/
theorem gather_v21 (x0 : (⟨S50000x128, .f32⟩ : BufTy).Contents (Elt Ideal)) (x1 : (⟨S600000, .i32⟩ : BufTy).Contents (Elt Ideal))
    (x4 : (⟨S128x512, .f32⟩ : BufTy).Contents (Elt Ideal)) (x5 : (⟨S512, .f32⟩ : BufTy).Contents (Elt Ideal))
    (h1 : InRange x1) (e : Fin 600000) (d : Fin 128) :
    val_main_v21 (F := Ideal) x0 x1 x4 x5 (ix2 e d) = nodeBlock 2 x0 x4 x5 (rowOf (x1 (ix1 e))) d := by
  unfold val_main_v21
  refine (gather_rows_ideal (φ := .f32) (N := 50000) (D := 128) (n := 600000) (w := 32) _ rfl rfl rfl rfl rfl
    _ _ e d (by decide)).trans ?_
  rw [row_eq _ _ (col_v20 x1 h1 e)]
  exact node_v6 x0 x4 x5 (rowOf (x1 (ix1 e))) d

/-- The value of the sender of edge `e`. -/
theorem gather_v33 (x0 : (⟨S50000x128, .f32⟩ : BufTy).Contents (Elt Ideal)) (x1 : (⟨S600000, .i32⟩ : BufTy).Contents (Elt Ideal))
    (x4 : (⟨S128x512, .f32⟩ : BufTy).Contents (Elt Ideal)) (x5 : (⟨S512, .f32⟩ : BufTy).Contents (Elt Ideal))
    (h1 : InRange x1) (e : Fin 600000) (d : Fin 128) :
    val_main_v33 (F := Ideal) x0 x1 x4 x5 (ix2 e d) = nodeBlock 3 x0 x4 x5 (rowOf (x1 (ix1 e))) d := by
  unfold val_main_v33
  refine (gather_rows_ideal (φ := .f32) (N := 50000) (D := 128) (n := 600000) (w := 32) _ rfl rfl rfl rfl rfl
    _ _ e d (by decide)).trans ?_
  rw [row_eq _ _ (col_v32 x1 h1 e)]
  exact node_v7 x0 x4 x5 (rowOf (x1 (ix1 e))) d

/-! ## The message and the sum -/

/-- The gate spelled with a quotient, the constant one, an exponential and a negation, over a sum added from the
    right, is the gate of the sum added from the left, times the value. -/
theorem gate_spelled (q k t v : Ideal .f32) :
    FloatOps.mulf (FloatOps.hostDivf (FloatOps.ofBits .f32 0x3F800000#32)
        (FloatOps.addf (FloatOps.ofBits .f32 0x3F800000#32)
          (FloatOps.hostUnary .exp (FloatOps.hostNegf (FloatOps.addf q (FloatOps.addf k t)))))) v
      = Ideal.logistic ((q + k) + t) * v := by
  show Ideal.div (Ideal.ofBits .f32 0x3F800000#32) (Ideal.ofBits .f32 0x3F800000#32 + Ideal.exp (-(q + (k + t)))) * v = _
  rw [ofBits_one_f32, add_assoc, ← logistic_spelled]

/-- The message of edge `e`, component `d`, as the reference computes it. -/
theorem message_v41 (x0 : (⟨S50000x128, .f32⟩ : BufTy).Contents (Elt Ideal)) (x1 x2 : (⟨S600000, .i32⟩ : BufTy).Contents (Elt Ideal))
    (x3 : (⟨S600000x128, .f32⟩ : BufTy).Contents (Elt Ideal)) (x4 : (⟨S128x512, .f32⟩ : BufTy).Contents (Elt Ideal))
    (x5 : (⟨S512, .f32⟩ : BufTy).Contents (Elt Ideal)) (x6 : (⟨S128x128, .f32⟩ : BufTy).Contents (Elt Ideal))
    (x7 : (⟨S128, .f32⟩ : BufTy).Contents (Elt Ideal)) (h1 : InRange x1) (h2 : InRange x2) (e : Fin 600000) (d : Fin 128) :
    val_main_v41 (F := Ideal) x0 x1 x2 x3 x4 x5 x6 x7 (ix2 e d) = message x0 x1 x2 x3 x4 x5 x6 x7 e d := by
  rw [val_main_v41_apply, val_main_v40_apply, val_main_v39_apply, val_main_cst_5_apply, val_main_v38_apply,
    val_main_v37_apply, val_main_cst_apply, val_main_v36_apply, val_main_v35_apply, val_main_v34_apply,
    val_main_v26_apply, gather_v14 x0 x2 x4 x5 h2, gather_v21 x0 x1 x4 x5 h1, gather_v33 x0 x1 x4 x5 h1, edge_v25]
  unfold message
  exact gate_spelled _ _ _ _

/-- THE REFERENCE'S RESULT IS THE SPECIFICATION: element `(v, d)` is the node's own block plus zero plus the sum of
    the messages of the edges whose receiver word is `v`. -/
theorem reference_updated (x0 : (⟨S50000x128, .f32⟩ : BufTy).Contents (Elt Ideal)) (x1 x2 : (⟨S600000, .i32⟩ : BufTy).Contents (Elt Ideal))
    (x3 : (⟨S600000x128, .f32⟩ : BufTy).Contents (Elt Ideal)) (x4 : (⟨S128x512, .f32⟩ : BufTy).Contents (Elt Ideal))
    (x5 : (⟨S512, .f32⟩ : BufTy).Contents (Elt Ideal)) (x6 : (⟨S128x128, .f32⟩ : BufTy).Contents (Elt Ideal))
    (x7 : (⟨S128, .f32⟩ : BufTy).Contents (Elt Ideal)) (h1 : InRange x1) (h2 : InRange x2) :
    val_main_v45 (F := Ideal) x0 x1 x2 x3 x4 x5 x6 x7 = updatedArray x0 x1 x2 x3 x4 x5 x6 x7 := by
  funext i
  obtain ⟨v, d, rfl⟩ : ∃ (v : Fin 50000) (d : Fin 128), i = ix2 v d := ⟨i 0, i 1, eq_ix2 i⟩
  rw [updatedArray_apply]
  unfold updated
  rw [val_main_v45_apply, node_v4]
  refine congrArg (nodeBlock 0 x0 x4 x5 v d + ·) ?_
  unfold val_main_v44
  refine (scatterAdd_rows (φ := .f32) (N := 50000) (D := 128) (n := 600000) (w := 32) _ rfl rfl rfl rfl
    _ _ _ v d).trans ?_
  have hz : val_main_v42 (F := Ideal) (ix2 v d) = 0 := by
    rw [val_main_v42_apply, val_main_cst_6_apply]
    exact Ideal.ofBits_zero_f32
  have hc : ∀ e : Fin 600000, val_main_v43 (F := Ideal) x2 (ix2 e 0) = x2 (ix1 e) := by
    intro e
    have hi : idx_main_v43 (ix2 e (0 : Fin 1)) = ix1 e := by
      funext a; match a with | ⟨0, _⟩ => rfl
    rw [val_main_v43_apply, hi]
  rw [hz]
  simp only [hc]
  refine congrArg ((0 : EReal) + ·) ?_
  exact Finset.sum_congr rfl fun e _ => message_v41 x0 x1 x2 x3 x4 x5 x6 x7 h1 h2 e d

end Cert.ReferenceIdeal.RefValue

end
-- ==== Proof.lean ====
/-
  One round of gated message passing on a graph of 50000 nodes and 600000 edges, width 128: a Pallas kernel in
  two regions with index glue between them, against its plain array reference.

  Both programs map each node's features by one affine map into four blocks (the node's own term, query, key,
  value), form for each edge the message  σ(query of the receiver + key of the sender + edge term) · value of the
  sender,  σ t = 1 / (1 + e^(−t)),  sum the messages into their receivers and add the node's own term. They differ
  in three places. The kernel clips both index arrays into [0, 49999] before it reads rows and before it sums; the
  reference reads rows at the words as given (a negative word wrapped by + 50000, the read clamped into the table)
  and drops a message whose receiver word names no node. Under the precondition — every float entry finite, every
  sender and receiver word in [0, 50000) — the clip, the wrap and the clamp are all the identity and nothing is
  dropped. Under the gate the kernel adds (query + key) + edge term, the reference query + (key + edge term): addition
  of extended reals is associative. The kernel's gate is one operation, the reference spells it with a quotient, an
  exponential and a negation: at the ideal instance the one IS the other. No entry's finiteness is used.

  The mathematics is fixed once in Proof/Spec.lean (`updatedArray`). The idealized kernel's result array is that
  function of the argument arrays (Proof/KernelValue.lean, over the two regions' arrays read in
  Proof/NodeBlocks.lean and Proof/EdgeMessages.lean and the index glue of Proof/HostGlue.lean and
  Proof/HostStretches.lean); so is the reference's (Proof/ReferenceValue.lean); the index range is read out of the
  precondition in Proof/IndexRange.lean.
-/
import proofs.«428245_j28441273434190_3_alg».proof.Defs
import proofs.«428245_j28441273434190_3_alg».proof.Proof.Gen.Kernel
import proofs.«428245_j28441273434190_3_alg».proof.Proof.Gen.Kernel.Skeleton
import proofs.«428245_j28441273434190_3_alg».proof.Proof.Gen.Kernel.Launch
import proofs.«428245_j28441273434190_3_alg».proof.Proof.Gen.Kernel.Points
import proofs.«428245_j28441273434190_3_alg».proof.Proof.Gen.Kernel.Frame
import proofs.«428245_j28441273434190_3_alg».proof.Proof.Gen.KernelIdeal
import proofs.«428245_j28441273434190_3_alg».proof.Proof.Gen.KernelIdeal.Skeleton
import proofs.«428245_j28441273434190_3_alg».proof.Proof.Gen.KernelIdeal.Launch
import proofs.«428245_j28441273434190_3_alg».proof.Proof.Gen.KernelIdeal.Points
import proofs.«428245_j28441273434190_3_alg».proof.Proof.Gen.KernelIdeal.Frame
import proofs.«428245_j28441273434190_3_alg».proof.Proof.Gen.ReferenceIdeal
import proofs.«428245_j28441273434190_3_alg».proof.Proof.Gen.ReferenceIdeal.Run
import proofs.«428245_j28441273434190_3_alg».proof.Proof.Gen.ReferenceIdeal.Read
import proofs.«428245_j28441273434190_3_alg».proof.Proof.Gen.Pre_finite_inputs
import proofs.«428245_j28441273434190_3_alg».proof.Proof.Spec
import proofs.«428245_j28441273434190_3_alg».proof.Proof.IndexRange
import proofs.«428245_j28441273434190_3_alg».proof.Proof.KernelRun
import proofs.«428245_j28441273434190_3_alg».proof.Proof.KernelValue
import proofs.«428245_j28441273434190_3_alg».proof.Proof.ReferenceValue
import Idealize.ShloMosaic.Adequacy
import Idealize.ShloMosaic.Init

noncomputable section

namespace Cert.Proof

open Idealize.ShloMosaic Idealize.SL.Sem Cert.GatedMessages

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the result array at
    `updatedArray` of the arguments: the kernel by its run and `kernel_updated`, the reference by its run and
    `reference_updated`, both under the index range the precondition gives. -/
theorem algebraic : Cert.algebraic_KernelIdeal_ReferenceIdeal := by
  intro m ρ m' ρ' hpre hagree
  have hrange := fun c => Cert.Pre_finite_inputs.Range.inRange_of_pre _ _ _ _ _ _ _ _ (hpre c)
  refine ⟨fun c => updatedArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Run.run (F := Ideal) m ρ)
    exact Cert.KernelIdeal.KernelValue.kernel_updated m ρ c (hrange c).1 (hrange c).2
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v45_eq, e0, e1, e2, e3, e4, e5, e6, e7]
    exact Cert.ReferenceIdeal.RefValue.reference_updated _ _ _ _ _ _ _ _ (hrange c).1 (hrange c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
